-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x1024 .f32) (main_arg1 : FVec F S1024x1024 .f32) (main_arg2 : FVec F S1x1024 .f32) (main_arg3 : FVec F S1x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1024 : Shape := ⟨1, ![1024]⟩
abbrev S1024x1 : Shape := ⟨2, ![1024, 1]⟩
abbrev S1x1x1024 : Shape := ⟨3, ![1, 1, 1024]⟩
abbrev S1x1x1 : Shape := ⟨3, ![1, 1, 1]⟩

abbrev nBuf : Space → Nat
  | .hbm => 17
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1024x128, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S1024, .f32⟩
  | .hbm, ⟨11, _⟩ => ⟨S1024x128, .f32⟩
  | .hbm, ⟨12, _⟩ => ⟨S1024, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1024x128 : S_.BroadcastsInDim S1024x128 (![] : Fin 0 → Fin S1024x128.rank)
  bcast_S_S1 : S_.BroadcastsInDim S1 (![] : Fin 0 → Fin S1.rank)
  bcast_S_S1024 : S_.BroadcastsInDim S1024 (![] : Fin 0 → Fin S1024.rank)
  shapeCasts_S1x1024_S1024 : S1x1024.ShapeCasts S1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x1 : S1024x128.Slices ![0, 0] S1024x1
  slices_S1024x128_o0_1_S1024x1 : S1024x128.Slices ![0, 1] S1024x1
  inb_S1x1024_S1x1024_0_0 : ∀ a, (![0, 0] : Fin 2 → Nat) a + S1x1024.size a ≤ S1x1024.size a
  h_S1x1024 : 0 < S1x1024.numel
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  broadcasts_S1x1024_S1024x1024 : S1x1024.Broadcasts S1024x1024
  broadcasts_S1024x1_S1024x1024 : S1024x1.Broadcasts S1024x1024
  scatter_S1024x128_S1_S1024_0_1_1_0_wf : ScatterDims.WF S1024x128 S1 S1024 [0] [1] [1] 0
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .f32 = 32 ∨ (Rect.block (s := S8192x1024) S1024x1024.size (cc0_transform_6 i) (hinb0_6 i)).WholeWords (EltTy.packing .f32)

variable [Facts₀]

def scatter_S1024x128_S1_S1024_0_1_1_0 : ScatterDims S1024x128 S1 S1024 where
  updateWindowDims := [0]
  insertedWindowDims := [1]
  scatterDimsToOperandDims := [1]
  indexVectorDim := 0
  wf := scatter_S1024x128_S1_S1024_0_1_1_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S0 : Shape := ⟨1, ![0]⟩
abbrev S_ : Shape := ⟨0, ![]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S0, .i32⟩
  | .hbm, ⟨6, _⟩ => ⟨S0, .i32⟩
  | .hbm, ⟨7, _⟩ => ⟨S0, .i32⟩
  | .hbm, ⟨8, _⟩ => ⟨S0, .i32⟩
  | .hbm, ⟨9, _⟩ => ⟨S0, .i32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_4 : Ref sig .tc := ⟨.hbm, 13, rfl⟩
abbrev main_v2 : Ref sig .tc := ⟨.hbm, 14, rfl⟩
abbrev main_v3 : Ref sig .tc := ⟨.hbm, 15, rfl⟩
abbrev main_cst_5 : Ref sig .tc := ⟨.hbm, 16, rfl⟩
abbrev main_v4 : Ref sig .tc := ⟨.hbm, 17, rfl⟩
abbrev main_v5 : Ref sig .tc := ⟨.hbm, 18, rfl⟩
abbrev main_cst_6 : Ref sig .tc := ⟨.hbm, 19, rfl⟩
abbrev main_v6 : Ref sig .tc := ⟨.hbm, 20, rfl⟩
abbrev main_v7 : Ref sig .tc := ⟨.hbm, 21, rfl⟩
abbrev main_cst_7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  hz_S0 : S0.numel = 0
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x1024_S512 : S512x1024.Reduces [1] S512
  shapeCasts_S512_S512x1 : S512.ShapeCasts S512x1
  broadcasts_S512x1_S512x1024 : S512x1.Broadcasts S512x1024
  scatter_S8192x1024_S0_S8192x1024_01_n_n_0_wf : ScatterDims.WF S8192x1024 S0 S8192x1024 [0, 1] [] [] 0
  scatter_S1024x1024_S0_S1024x1024_01_n_n_0_wf : ScatterDims.WF S1024x1024 S0 S1024x1024 [0, 1] [] [] 0
  scatter_S1x1024_S0_S1x1024_01_n_n_0_wf : ScatterDims.WF S1x1024 S0 S1x1024 [0, 1] [] [] 0
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x1024.size a
  hwx0_0 : ∀ i : grid0.Coords, EltTy.bits .f32 = 32 ∨ (Rect.block (s := S8192x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S1024x1024.size a
  hwx0_1 : ∀ i : grid0.Coords, EltTy.bits .f32 = 32 ∨ (Rect.block (s := S1024x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def scatter_S8192x1024_S0_S8192x1024_01_n_n_0 : ScatterDims S8192x1024 S0 S8192x1024 where
  updateWindowDims := [0, 1]
  insertedWindowDims := []
  scatterDimsToOperandDims := []
  indexVectorDim := 0
  wf := scatter_S8192x1024_S0_S8192x1024_01_n_n_0_wf
def scatter_S1024x1024_S0_S1024x1024_01_n_n_0 : ScatterDims S1024x1024 S0 S1024x1024 where
  updateWindowDims := [0, 1]
  insertedWindowDims := []
  scatterDimsToOperandDims := []
  indexVectorDim := 0
  wf := scatter_S1024x1024_S0_S1024x1024_01_n_n_0_wf
def scatter_S1x1024_S0_S1x1024_01_n_n_0 : ScatterDims S1x1024 S0 S1x1024 where
  updateWindowDims := [0, 1]
  insertedWindowDims := []
  scatterDimsToOperandDims := []
  indexVectorDim := 0
  wf := scatter_S1x1024_S0_S1x1024_01_n_n_0_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.Spec.lean ====
/-
  The function both programs compute, written twice: once as the kernel arranges it and once as the reference does.

  Over arrays of extended reals X : [8192, 1024], W : [1024, 1024], b, g, β : [1, 1024], with y = X · W (row r, column j:
  `lin X W r j = ∑ k, X r k * W k j`):

  * the kernel takes the row statistics of z = y + b WITHOUT forming z: the row sum as (∑ j, y j · 1) + ∑ j, b j, the sum of
    squares as (∑ j, (y j · y j) · 1) + 2 · (∑ j, y j · b j) + ∑ j, b j · b j (the three sums over y are two small matrix
    products against a matrix whose column 0 is all ones and whose column 1 is b), then mean = sum / 1024,
    var = max (sumsq / 1024 − mean², 0), and the result max (((y + b) − mean) · rsqrt (var + ε) · g + β, 0);
  * the reference accumulates z = (b + the first 512 terms of the product) + the last 512 terms, sums z and z · z along
    the row, and normalises the same way.

  The divisions by 1024 are products with the literal 2⁻¹⁰, the same word on both sides; ε and the zero of the final
  maximum are shared words too. The literals stay words (`Ideal.ofBits`): only 1.0 and 2.0 are ever evaluated.
-/
import Idealize.ShloMosaic.PureOps.Ideal
import Idealize.ShloMosaic.Lib.ValueIdx

noncomputable section

open scoped BigOperators

namespace Cert.LNSpec

open Idealize.ShloMosaic Idealize.ShloMosaic.ValueIdx

abbrev SX : Shape := ⟨2, ![8192, 1024]⟩
abbrev SW : Shape := ⟨2, ![1024, 1024]⟩
abbrev SV : Shape := ⟨2, ![1, 1024]⟩

/-- 2⁻¹⁰ = 1/1024, the reciprocal of the row length. -/
abbrev cInv : EReal := Ideal.ofBits .f32 0x3A800000#32
/-- The variance's ε (the f32 nearest 1e-5). -/
abbrev cEps : EReal := Ideal.ofBits .f32 0x3727C5AC#32
abbrev cTwo : EReal := Ideal.ofBits .f32 0x40000000#32
abbrev cOne : EReal := Ideal.ofBits .f32 0x3F800000#32
abbrev cZero : EReal := Ideal.ofBits .f32 0x00000000#32

/-- The first and the second half of the contraction axis. -/
def lo (k : Fin 512) : Fin 1024 := ⟨k.val, by have := k.isLt; omega⟩
def hi (k : Fin 512) : Fin 1024 := ⟨512 + k.val, by have := k.isLt; omega⟩

/-- Row r, column j of X · W. -/
def lin (X : SX.Idx → EReal) (W : SW.Idx → EReal) (r : Fin 8192) (j : Fin 1024) : EReal :=
  ∑ k : Fin 1024, X (ix2 r k) * W (ix2 k j)

/-! ## The kernel's arrangement -/

def kMean (X : SX.Idx → EReal) (W : SW.Idx → EReal) (b : SV.Idx → EReal) (r : Fin 8192) : EReal :=
  ((∑ j : Fin 1024, lin X W r j * cOne) + ∑ j : Fin 1024, b (ix2 0 j)) * cInv

def kVar (X : SX.Idx → EReal) (W : SW.Idx → EReal) (b : SV.Idx → EReal) (r : Fin 8192) : EReal :=
  max ((((∑ j : Fin 1024, (lin X W r j * lin X W r j) * cOne) + cTwo * ∑ j : Fin 1024, lin X W r j * b (ix2 0 j))
      + ∑ j : Fin 1024, b (ix2 0 j) * b (ix2 0 j)) * cInv - kMean X W b r * kMean X W b r) cZero

def kernelOutAt (X : SX.Idx → EReal) (W : SW.Idx → EReal) (b g β : SV.Idx → EReal) (r : Fin 8192) (q : Fin 1024) : EReal :=
  max ((((lin X W r q + b (ix2 0 q)) - kMean X W b r) * Ideal.rsqrt (kVar X W b r + cEps)) * g (ix2 0 q) + β (ix2 0 q)) cZero

def kernelOut (X : SX.Idx → EReal) (W : SW.Idx → EReal) (b g β : SV.Idx → EReal) : SX.Idx → EReal :=
  fun i => kernelOutAt X W b g β (i 0) (i 1)

/-! ## The reference's arrangement -/

def rZ (X : SX.Idx → EReal) (W : SW.Idx → EReal) (b : SV.Idx → EReal) (r : Fin 8192) (j : Fin 1024) : EReal :=
  (b (ix2 0 j) + ∑ k : Fin 512, X (ix2 r (lo k)) * W (ix2 (lo k) j)) + ∑ k : Fin 512, X (ix2 r (hi k)) * W (ix2 (hi k) j)

def rMean (X : SX.Idx → EReal) (W : SW.Idx → EReal) (b : SV.Idx → EReal) (r : Fin 8192) : EReal :=
  (∑ j : Fin 1024, rZ X W b r j) * cInv

def rVar (X : SX.Idx → EReal) (W : SW.Idx → EReal) (b : SV.Idx → EReal) (r : Fin 8192) : EReal :=
  max ((∑ j : Fin 1024, rZ X W b r j * rZ X W b r j) * cInv - rMean X W b r * rMean X W b r) cZero

def refOutAt (X : SX.Idx → EReal) (W : SW.Idx → EReal) (b g β : SV.Idx → EReal) (r : Fin 8192) (q : Fin 1024) : EReal :=
  max ((((rZ X W b r q - rMean X W b r) * Ideal.rsqrt (rVar X W b r + cEps)) * g (ix2 0 q)) + β (ix2 0 q)) cZero

def refOut (X : SX.Idx → EReal) (W : SW.Idx → EReal) (b g β : SV.Idx → EReal) : SX.Idx → EReal :=
  fun i => refOutAt X W b g β (i 0) (i 1)

end Cert.LNSpec

end
-- ==== Proof.RowAlgebra.lean ====
import proofs.«140966_g2000102696666258_pallasbulk_1294_19_alg».proof.Proof.Spec
import Idealize.ShloMosaic.Lib.IdealHost
import Mathlib.Algebra.BigOperators.Fin
import Mathlib.Data.EReal.Operations
import Mathlib.Tactic.Ring
import Mathlib.Tactic.NormNum.Basic

noncomputable section

open scoped BigOperators

namespace Cert.LNSpec

open Idealize.ShloMosaic Idealize.ShloMosaic.ValueIdx

/-! ## The two literals that are evaluated -/

/-- The word of 1.0 is the extended real one. -/
theorem cOne_eq : cOne = 1 := Ideal.ofBits_one_f32

/-- The word of 2.0 is the real two: sign +, exponent field 128, fraction 0, that is 2²³ · 2^(128 − 127 − 23). -/
theorem cTwo_eq : cTwo = ((2 : ℝ) : EReal) := by
  simp [cTwo, Ideal.ofBits, Ideal.ieee, -EReal.coe_mul]; norm_num

/-! ## Finite sums of reals inside the extended reals -/

/-- The coercion ℝ → EReal commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The contraction axis is its first half followed by its second half. -/
theorem sum_halves {M : Type*} [AddCommMonoid M] (f : Fin 1024 → M) :
    ∑ k : Fin 1024, f k = (∑ k : Fin 512, f (lo k)) + ∑ k : Fin 512, f (hi k) :=
  Fin.sum_univ_add (a := 512) (b := 512) f

/-- The sum of the squares of y + c over a finite index set, for real y and c: the binomial expansion, summed. -/
theorem sum_sq_add {ι : Type*} [Fintype ι] (y c : ι → ℝ) :
    ∑ j, ((y j : EReal) + (c j : EReal)) * ((y j : EReal) + (c j : EReal))
      = ((∑ j, ((y j : EReal) * (y j : EReal)) * 1) + ((2 : ℝ) : EReal) * ∑ j, (y j : EReal) * (c j : EReal))
          + ∑ j, (c j : EReal) * (c j : EReal) := by
  have hR : ∑ j, (y j + c j) * (y j + c j) = ((∑ j, y j * y j) + 2 * ∑ j, y j * c j) + ∑ j, c j * c j := by
    rw [Finset.mul_sum, ← Finset.sum_add_distrib, ← Finset.sum_add_distrib]
    exact Finset.sum_congr rfl fun j _ => by ring
  simp only [mul_one, ← EReal.coe_mul, ← EReal.coe_add, ← coe_sum]
  exact congrArg _ hR

/-! ## One row

Fix a row r and write y j for `lin X W r j`, the row of X · W, and c j for `b (ix2 0 j)`. -/

section Row

variable (X : SX.Idx → EReal) (W : SW.Idx → EReal) (b : SV.Idx → EReal) (r : Fin 8192)

/-- The reference's accumulation (c + first half) + second half is y + c: only associativity and commutativity of +,
    which hold on all of EReal. -/
theorem rZ_eq (j : Fin 1024) : rZ X W b r j = lin X W r j + b (ix2 0 j) := by
  unfold rZ lin
  rw [sum_halves (fun k => X (ix2 r k) * W (ix2 k j)), add_assoc, add_comm]

/-- The row sum of y + c is the row sum of y · 1 plus the row sum of c; again no finiteness is used. -/
theorem sum_rZ :
    ∑ j : Fin 1024, rZ X W b r j = (∑ j : Fin 1024, lin X W r j * cOne) + ∑ j : Fin 1024, b (ix2 0 j) := by
  simp only [rZ_eq, cOne_eq, mul_one, Finset.sum_add_distrib]

/-- A finite sum of products of reals is real. -/
theorem lin_real (hX : ∀ i, ∃ x : ℝ, X i = (x : EReal)) (hW : ∀ i, ∃ x : ℝ, W i = (x : EReal)) (j : Fin 1024) :
    ∃ y : ℝ, lin X W r j = (y : EReal) := by
  choose x hx using hX
  choose w hw using hW
  refine ⟨∑ k : Fin 1024, x (ix2 r k) * w (ix2 k j), ?_⟩
  unfold lin
  rw [coe_sum]
  exact Finset.sum_congr rfl fun k _ => by rw [hx, hw, EReal.coe_mul]

/-- The row sum of (y + c)² expands as ∑ y² · 1 + 2 · ∑ y c + ∑ c². Multiplication distributes over + only away from
    the infinities, so this is where y and c must be real. -/
theorem sumsq_rZ (hX : ∀ i, ∃ x : ℝ, X i = (x : EReal)) (hW : ∀ i, ∃ x : ℝ, W i = (x : EReal))
    (hb : ∀ i, ∃ x : ℝ, b i = (x : EReal)) :
    ∑ j : Fin 1024, rZ X W b r j * rZ X W b r j
      = ((∑ j : Fin 1024, (lin X W r j * lin X W r j) * cOne) + cTwo * ∑ j : Fin 1024, lin X W r j * b (ix2 0 j))
          + ∑ j : Fin 1024, b (ix2 0 j) * b (ix2 0 j) := by
  choose y hy using lin_real X W r hX hW
  choose c hc using fun j : Fin 1024 => hb (ix2 0 j)
  simp only [rZ_eq, hy, hc, cOne_eq, cTwo_eq]
  exact sum_sq_add y c

/-- The two means agree. -/
theorem kMean_eq_rMean : kMean X W b r = rMean X W b r := by
  unfold kMean rMean
  rw [sum_rZ]

/-- The two variances agree. -/
theorem kVar_eq_rVar (hX : ∀ i, ∃ x : ℝ, X i = (x : EReal)) (hW : ∀ i, ∃ x : ℝ, W i = (x : EReal))
    (hb : ∀ i, ∃ x : ℝ, b i = (x : EReal)) : kVar X W b r = rVar X W b r := by
  unfold kVar rVar
  rw [sumsq_rZ X W b r hX hW hb, kMean_eq_rMean]

/-- The two results agree entry by entry. -/
theorem kernelOutAt_eq_refOutAt (g β : SV.Idx → EReal) (hX : ∀ i, ∃ x : ℝ, X i = (x : EReal))
    (hW : ∀ i, ∃ x : ℝ, W i = (x : EReal)) (hb : ∀ i, ∃ x : ℝ, b i = (x : EReal)) (q : Fin 1024) :
    kernelOutAt X W b g β r q = refOutAt X W b g β r q := by
  unfold kernelOutAt refOutAt
  rw [rZ_eq, kMean_eq_rMean, kVar_eq_rVar X W b r hX hW hb]

end Row

/-- With X, W and b finite the two arrangements are one function. -/
theorem kernelOut_eq_refOut (X : SX.Idx → EReal) (W : SW.Idx → EReal) (b g β : SV.Idx → EReal)
    (hX : ∀ i, ∃ x : ℝ, X i = (x : EReal)) (hW : ∀ i, ∃ x : ℝ, W i = (x : EReal)) (hb : ∀ i, ∃ x : ℝ, b i = (x : EReal)) :
    kernelOut X W b g β = refOut X W b g β := by
  funext i
  exact kernelOutAt_eq_refOutAt X W b (i 0) g β hX hW hb (i 1)

end Cert.LNSpec

end
-- ==== Proof.LibScatterSet.lean ====
import Idealize.ShloMosaic.PureOps.ShapeOps

noncomputable section

open scoped BigOperators

namespace Idealize.ShloMosaic

/-- A left fold of pointwise updates, read at a point none of the steps touches: the start value there. -/
theorem foldl_apply_of_untouched {ι κ α : Type} (step : (κ → α) → ι → (κ → α)) (i : κ) :
    ∀ (l : List ι) (x : κ → α), (∀ n ∈ l, ∀ r, step r n i = r i) → l.foldl step x i = x i
  | [], x, _ => rfl
  | a :: t, x, h => by
    rw [List.foldl_cons, foldl_apply_of_untouched step i t (step x a) (fun n hn => h n (List.mem_cons_of_mem a hn))]
    exact h a List.mem_cons_self x

/-- A left fold of pointwise updates over a list without repetition, read at a point that exactly one step `n₀` of
    the list touches, and which that step sets to `v` whatever was there: `v`. -/
theorem foldl_apply_of_touched_once {ι κ α : Type} (step : (κ → α) → ι → (κ → α)) (i : κ) (n₀ : ι) (v : α)
    (hset : ∀ r, step r n₀ i = v) :
    ∀ (l : List ι) (x : κ → α), l.Nodup → n₀ ∈ l → (∀ n ∈ l, n ≠ n₀ → ∀ r, step r n i = r i) →
      l.foldl step x i = v
  | [], x, _, hmem, _ => absurd hmem List.not_mem_nil
  | a :: t, x, hnd, hmem, hother => by
    rw [List.foldl_cons]
    rcases List.nodup_cons.mp hnd with ⟨hat, hndt⟩
    by_cases ha : a = n₀
    · subst ha
      rw [foldl_apply_of_untouched step i t (step x a)
        (fun n hn => hother n (List.mem_cons_of_mem a hn) (fun e => hat (e ▸ hn)))]
      exact hset x
    · have hmemt : n₀ ∈ t := by
        rcases List.mem_cons.mp hmem with e | e
        · exact absurd e.symm ha
        · exact e
      exact foldl_apply_of_touched_once step i n₀ v hset t (step x a) hndt hmemt
        (fun n hn => hother n (List.mem_cons_of_mem a hn))

/-- One step of a scatter whose body returns the update, at an update index that does not land on `i`: nothing
    changes at `i`. -/
private theorem scatter_set_step_miss {α : Type} {s si u : Shape} {w : Nat} (d : ScatterDims s si u)
    (idx : IVec si w) (upd : u.Idx → α) (i : s.Idx) (n : Fin u.numel)
    (hn : d.resultIdx? (u.rowMajor.symm n) idx ≠ some i) (r : s.Idx → α) :
    (match d.resultIdx? (u.rowMajor.symm n) idx with
      | some i₀ => fun i' => if i' = i₀ then (fun _ b => b) (r i₀) (upd (u.rowMajor.symm n)) else r i'
      | none => r) i = r i := by
  generalize d.resultIdx? (u.rowMajor.symm n) idx = o at hn
  cases o with
  | none => rfl
  | some i₀ =>
    have hne : i ≠ i₀ := fun e => hn (e ▸ rfl)
    exact if_neg hne

/-- A `stablehlo.scatter` whose body returns the update (`x.at[…].set(u)`), read at an operand index that exactly one
    update index lands on: the update there. -/
theorem Host.scatter_set_apply_of_hit {α : Type} {s si u : Shape} {w : Nat} (d : ScatterDims s si u) (x : s.Idx → α)
    (idx : IVec si w) (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine foldl_apply_of_touched_once _ i (u.rowMajor j) (upd j) ?_ _ x (List.nodup_finRange _) (List.mem_finRange _) ?_
  · intro r
    simp only [Equiv.symm_apply_apply, hj, if_true]
  · intro n _ hne r
    refine scatter_set_step_miss d idx upd i n (fun h => hne ?_) r
    rw [← huniq _ h, Equiv.apply_symm_apply]

/-- … and at an operand index no update index lands on: the operand there. -/
theorem Host.scatter_set_apply_of_miss {α : Type} {s si u : Shape} {w : Nat} (d : ScatterDims s si u) (x : s.Idx → α)
    (idx : IVec si w) (upd : u.Idx → α) (i : s.Idx) (hmiss : ∀ j, d.resultIdx? j idx ≠ some i) :
    Host.scatter d (fun _ b => b) x idx upd i = x i := by
  unfold Host.scatter
  exact foldl_apply_of_untouched _ i _ x (fun n _ r => scatter_set_step_miss d idx upd i n (hmiss _) r)

end Idealize.ShloMosaic

end
-- ==== Proof.KernelHost.lean ====
import proofs.«140966_g2000102696666258_pallasbulk_1294_19_alg».proof.Proof.Gen.KernelIdeal.Frame
import proofs.«140966_g2000102696666258_pallasbulk_1294_19_alg».proof.Proof.LibScatterSet
import proofs.«140966_g2000102696666258_pallasbulk_1294_19_alg».proof.Proof.Spec
import Idealize.ShloMosaic.Lib.StableHlo.Run
import Idealize.ShloMosaic.Lib.ValueLayout

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- The column scatter (`x.at[:, col].set(u)`: the row axis is the update's window axis, the column axis inserted and
    started at the one index read), at an index vector that reads `col` everywhere: row `r` of the update lands at
    `(r, col)`. -/
theorem resultIdx?_col {w : Nat} (idx : IVec S1 w) (col : Fin 128) (hidx : ∀ k, (idx k).toInt = (col.val : Int))
    (r : Fin 1024) : scatter_S1024x128_S1_S1024_0_1_1_0.resultIdx? (ix1 r) idx = some (ix2 r col) := by
  have hs0 : scatter_S1024x128_S1_S1024_0_1_1_0.start (ix1 r) idx (0 : Fin 2) = 0 := dif_neg (by decide)
  have hs1 : scatter_S1024x128_S1_S1024_0_1_1_0.start (ix1 r) idx (1 : Fin 2) = (col.val : Int) :=
    (dif_pos (by decide)).trans (hidx _)
  have hw0 : scatter_S1024x128_S1_S1024_0_1_1_0.window (ix1 r) (0 : Fin 2) = r.val := rfl
  have hw1 : scatter_S1024x128_S1_S1024_0_1_1_0.window (ix1 r) (1 : Fin 2) = 0 := rfl
  have hr : r.val < S1024x128.size (0 : Fin 2) := r.isLt
  have hc : col.val < S1024x128.size (1 : Fin 2) := col.isLt
  unfold ScatterDims.resultIdx?
  rw [dif_pos (Fin.forall_fin_two.mpr ⟨by rw [hs0, hw0]; omega, by rw [hs1, hw1]; omega⟩)]
  congr 1
  refine funext (Fin.forall_fin_two.mpr ⟨?_, ?_⟩) <;> apply Fin.ext <;> dsimp only
  · rw [hs0, hw0]; show _ = r.val; omega
  · rw [hs1, hw1]; show _ = col.val; omega

/-- A scalar index broadcast to the length-1 index vector reads that scalar. -/
theorem idx_const (h : S_.BroadcastsInDim S1 (![] : Fin 0 → Fin S1.rank)) (b : BitVec 32) (k : S1.Idx) :
    (broadcastInDim S1 ![] h (constantI S_ 32 b) : IVec S1 32) k = b := rfl

/-- The column scatter at column `col`, read at `(r, col)`: row `r` of the update. -/
theorem scatter_col_hit {α : Type} {w : Nat} (x : S1024x128.Idx → α) (idx : IVec S1 w) (upd : S1024.Idx → α) (col : Fin 128)
    (hidx : ∀ k, (idx k).toInt = (col.val : Int)) (r : Fin 1024) :
    Host.scatter scatter_S1024x128_S1_S1024_0_1_1_0 (fun _ b => b) x idx upd (ix2 r col) = upd (ix1 r) := by
  refine Host.scatter_set_apply_of_hit _ x idx upd _ (ix1 r) (resultIdx?_col idx col hidx r) (fun j' hj' => ?_)
  obtain ⟨r', rfl⟩ : ∃ r' : Fin 1024, j' = ix1 r' := ⟨j' 0, eq_ix1 j'⟩
  rw [resultIdx?_col idx col hidx r'] at hj'
  have h0 : r' = r := congrFun (Option.some.inj hj') (0 : Fin 2)
  rw [h0]

/-- … and read in another column: the operand there. -/
theorem scatter_col_miss {α : Type} {w : Nat} (x : S1024x128.Idx → α) (idx : IVec S1 w) (upd : S1024.Idx → α) (col col' : Fin 128)
    (hidx : ∀ k, (idx k).toInt = (col.val : Int)) (hne : col ≠ col') (r : Fin 1024) :
    Host.scatter scatter_S1024x128_S1_S1024_0_1_1_0 (fun _ b => b) x idx upd (ix2 r col') = x (ix2 r col') := by
  refine Host.scatter_set_apply_of_miss _ x idx upd _ (fun j' hj' => hne ?_)
  obtain ⟨r', rfl⟩ : ∃ r' : Fin 1024, j' = ix1 r' := ⟨j' 0, eq_ix1 j'⟩
  rw [resultIdx?_col idx col hidx r'] at hj'
  exact congrFun (Option.some.inj hj') (1 : Fin 2)

variable (m : (ℓ : Loc nD τ sig) → Buf (Elt Ideal) ℓ)

/-- What the host operations leave in the reduction matrix: zeros, then column 0 set to ones, then column 1 set to the
    bias row (reshaped to a vector). -/
theorem V_main_v6_eq (c : Dev nD) : (V m c main_v6 : S1024x128.Idx → EReal)
    = Host.scatter (w := 32) scatter_S1024x128_S1_S1024_0_1_1_0 (fun _ b => b)
        (Host.scatter (w := 32) scatter_S1024x128_S1_S1024_0_1_1_0 (fun _ b => b)
          (broadcastInDim S1024x128 ![] Facts₀.bcast_S_S1024x128 (constant (F := Ideal) S_ .f32 0x00000000#32))
          (broadcastInDim S1 ![] Facts₀.bcast_S_S1 (constantI S_ 32 0#32))
          (broadcastInDim S1024 ![] Facts₀.bcast_S_S1024 (constant (F := Ideal) S_ .f32 0x3F800000#32)))
        (broadcastInDim S1 ![] Facts₀.bcast_S_S1 (constantI S_ 32 1#32))
        (shapeCast S1024 (m ((c : Thread nD τ).loc main_arg2) : S1x1024.Idx → EReal) Facts₀.shapeCasts_S1x1024_S1024) := by
  dsimp only [Gen.V, Gen.hostOps0]; after_results <;> rfl

/-- The reduction matrix the host builds before the call: column 0 is all ones … -/
theorem V_main_v6_col0 (c : Dev nD) (j : Fin 1024) :
    (V m c main_v6 : S1024x128.Idx → EReal) (ix2 j (0 : Fin 128)) = LNSpec.cOne := by
  rw [V_main_v6_eq m c]
  rw [scatter_col_miss _ _ _ (1 : Fin 128) (0 : Fin 128) (fun k => by rw [idx_const]; rfl) (by decide) j]
  rw [scatter_col_hit _ _ _ (0 : Fin 128) (fun k => by rw [idx_const]; rfl) j]
  rfl

/-- … and column 1 is the bias row. -/
theorem V_main_v6_col1 (c : Dev nD) (j : Fin 1024) :
    (V m c main_v6 : S1024x128.Idx → EReal) (ix2 j (1 : Fin 128))
      = (m ((c : Thread nD τ).loc main_arg2) : S1x1024.Idx → EReal) (ix2 (0 : Fin 1) j) := by
  rw [V_main_v6_eq m c]
  rw [scatter_col_hit _ _ _ (1 : Fin 128) (fun k => by rw [idx_const]; rfl) j]
  exact shapeCast_1a_a_apply _ _ j

end Cert.KernelIdeal.Hand

end
-- ==== Proof.KernelBlock.lean ====
import proofs.«140966_g2000102696666258_pallasbulk_1294_19_alg».proof.Proof.Gen.KernelIdeal.Skeleton
import proofs.«140966_g2000102696666258_pallasbulk_1294_19_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## A matrix product into the zero accumulator, read at an index

For an M×K matrix A and a K×N matrix B contracted on A's columns and B's rows, entry (a, b) of the product is
∑ c, A (a, c) · B (c, b): the contraction index has one axis, and the operand indices at contraction position c are
(a, c) and (c, b). -/

section Product

variable {M K N : Nat} (w : DotDims.WF ⟨2, ![M, K]⟩ ⟨2, ![K, N]⟩ ⟨2, ![M, N]⟩ [1] [0] [0] [1] [] [])

/-- The left operand's index at result (a, b) and contraction position c is (a, c). -/
private theorem lhsIdx_plain (a : Fin M) (b : Fin N) (c : Fin K) :
    (⟨[1], [0], [0], [1], [], [], w⟩ : DotDims ⟨2, ![M, K]⟩ ⟨2, ![K, N]⟩ ⟨2, ![M, N]⟩).lhsIdx (ix2 a b)
      ((contrEquiv1 (⟨[1], [0], [0], [1], [], [], w⟩ : DotDims ⟨2, ![M, K]⟩ ⟨2, ![K, N]⟩ ⟨2, ![M, N]⟩) K rfl rfl).symm c)
      = ix2 a c := by
  have hc := contrEquiv1_symm_val
    (⟨[1], [0], [0], [1], [], [], w⟩ : DotDims ⟨2, ![M, K]⟩ ⟨2, ![K, N]⟩ ⟨2, ![M, N]⟩) K rfl rfl c
  funext ax; apply Fin.ext
  match ax with
  | ⟨0, _⟩ => simp [DotDims.lhsIdx]; rfl
  | ⟨1, _⟩ => simp [DotDims.lhsIdx]; exact hc

/-- The right operand's index there is (c, b). -/
private theorem rhsIdx_plain (a : Fin M) (b : Fin N) (c : Fin K) :
    (⟨[1], [0], [0], [1], [], [], w⟩ : DotDims ⟨2, ![M, K]⟩ ⟨2, ![K, N]⟩ ⟨2, ![M, N]⟩).rhsIdx (ix2 a b)
      ((contrEquiv1 (⟨[1], [0], [0], [1], [], [], w⟩ : DotDims ⟨2, ![M, K]⟩ ⟨2, ![K, N]⟩ ⟨2, ![M, N]⟩) K rfl rfl).symm c)
      = ix2 c b := by
  have hc := contrEquiv1_symm_val
    (⟨[1], [0], [0], [1], [], [], w⟩ : DotDims ⟨2, ![M, K]⟩ ⟨2, ![K, N]⟩ ⟨2, ![M, N]⟩) K rfl rfl c
  funext ax; apply Fin.ext
  match ax with
  | ⟨0, _⟩ => simp [DotDims.rhsIdx]; exact hc
  | ⟨1, _⟩ => simp [DotDims.rhsIdx]; rfl

/-- Entry (a, b) of the product accumulated into zero is the sum of the products along the contracted axis. -/
private theorem product_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  rw [lhsIdx_plain w a b c, rhsIdx_plain w a b c]

end Product

/-- The product block: row p, column q of (x block) · w. -/
theorem pay2_apply (P0 P1 : Vec Ideal S1024x1024 .f32) (p q : Fin 1024) :
    k0_pay2 P0 P1 (ix2 p q) = ∑ k : Fin 1024, P0 (ix2 p k) * P1 (ix2 k q) :=
  product_apply dot_S1024x1024_S1024x1024_S1024x1024_1_0_0_1_n_n_wf none
    (truncf .bf16 P0 bitsLt_bf16_f32) (truncf .bf16 P1 bitsLt_bf16_f32) p q

/-! ## The sum of a one-row array

A [1, 1024] row recast to [1, 1, 1024], added up over its last two axes into the one-entry shape, recast and read at its
one entry, is the sum of the row's 1024 entries: the reduction into a shape of unit axes is the sum over every source
index, the recast is a bijection of index sets, and a rank-2 index set is the product of its coordinate ranges. -/

private theorem rowTotal_apply (v : FVec Ideal S1x1024 .f32) (hc : S1x1024.ShapeCasts S1x1x1024) (hr : S1x1x1024.Reduces [1, 2] S1)
    (hφ : FKind.Formats .f32) (hacc : (0x00000000#32 : BitVec FTy.f32.bits) = FKind.add.neutral .f32 hφ)
    (hc' : S1.ShapeCasts S1x1x1) (hp : ∀ a, (![0, 0, 0] : Fin 3 → Nat) a < S1x1x1.size a) :
    extractAt ![0, 0, 0] (shapeCast S1x1x1 (multiReduction .add [1, 2] S1 (shapeCast S1x1x1024 v hc) 0x00000000#32 hr hφ hacc) hc') hp
      = ∑ j : Fin 1024, v (ix2 (0 : Fin 1) j) := by
  show multiReduction .add [1, 2] S1 (shapeCast S1x1x1024 v hc) 0x00000000#32 hr hφ hacc _ = _
  rw [Ideal.multiReduction_add_total _ _ hr (fun b => by match b with | ⟨0, _⟩ => rfl)]
  show ∑ i : S1x1x1024.Idx, v (Shape.reshapeEquiv hc i) = _
  rw [Equiv.sum_comp (Shape.reshapeEquiv hc) v, sum_idx2]
  exact Fintype.sum_unique _

/-! ## The statistics at a row -/

/-- The narrowed product block is the product block. -/
private theorem pay3_apply (P0 P1 : Vec Ideal S1024x1024 .f32) (i : S1024x1024.Idx) : k0_pay3 P0 P1 i = k0_pay2 P0 P1 i := rfl

/-- The narrowed reduction matrix is the reduction matrix. -/
private theorem pay4_apply (P3 : Vec Ideal S1024x128 .f32) (i : S1024x128.Idx) : k0_pay4 P3 i = P3 i := by
  unfold k0_pay4
  show shapeCast S1024x128 P3 shapeCasts_S1024x128_S1024x128 i = P3 i
  rw [shapeCast_self]

/-- The product block against the reduction matrix: row p, column c. -/
private theorem pay5_apply (P0 P1 : Vec Ideal S1024x1024 .f32) (P3 : Vec Ideal S1024x128 .f32) (p : Fin 1024) (c : Fin 128) :
    k0_pay5 P0 P1 P3 (ix2 p c) = ∑ j : Fin 1024, k0_pay2 P0 P1 (ix2 p j) * P3 (ix2 j c) := by
  refine (product_apply dot_S1024x1024_S1024x128_S1024x128_1_0_0_1_n_n_wf none (k0_pay3 P0 P1) (k0_pay4 P3) p c).trans ?_
  refine Finset.sum_congr rfl fun j _ => ?_
  rw [pay3_apply, pay4_apply]

/-- The squared product block against the reduction matrix: row p, column c. -/
private theorem sq_product_apply (P0 P1 : Vec Ideal S1024x1024 .f32) (P3 : Vec Ideal S1024x128 .f32) (p : Fin 1024) (c : Fin 128) :
    FloatOps.matmul dot_S1024x1024_S1024x128_S1024x128_1_0_0_1_n_n none (mulf (k0_pay3 P0 P1) (k0_pay3 P0 P1)) (k0_pay4 P3)
        (constant S1024x128 .f32 0x00000000#32) (ix2 p c)
      = ∑ j : Fin 1024, (k0_pay2 P0 P1 (ix2 p j) * k0_pay2 P0 P1 (ix2 p j)) * P3 (ix2 j c) := by
  refine (product_apply dot_S1024x1024_S1024x128_S1024x128_1_0_0_1_n_n_wf none
    (mulf (k0_pay3 P0 P1) (k0_pay3 P0 P1)) (k0_pay4 P3) p c).trans ?_
  refine Finset.sum_congr rfl fun j _ => ?_
  rw [mulf_apply, pay3_apply, pay4_apply]

/-- The row mean of y + b, from the product against the reduction matrix's column 0 and the bias row's own sum. -/
theorem pay6_apply (P0 P1 : Vec Ideal S1024x1024 .f32) (P3 : Vec Ideal S1024x128 .f32) (P2 : Vec Ideal S1x1024 .f32) (p : Fin 1024) :
    k0_pay6 P0 P1 P3 P2 (ix2 p (0 : Fin 1))
      = ((∑ j : Fin 1024, k0_pay2 P0 P1 (ix2 p j) * P3 (ix2 j (0 : Fin 128))) + ∑ j : Fin 1024, P2 (ix2 (0 : Fin 1) j)) * LNSpec.cInv := by
  unfold k0_pay6
  show (extractStridedSlice S1024x1 ![0, 0] (k0_pay5 P0 P1 P3) slices_S1024x128_o0_0_S1024x1 (ix2 p (0 : Fin 1))
      + extractAt ![0, 0, 0] (shapeCast S1x1x1 (multiReduction .add [1, 2] S1 (shapeCast S1x1x1024 P2 shapeCasts_S1x1024_S1x1x1024)
          0x00000000#32 reduces_S1x1x1024_S1 (.inl rfl) rfl) shapeCasts_S1_S1x1x1) inpos_S1x1x1_p0_0_0) * LNSpec.cInv = _
  rw [slice2_axis1_apply 0 (k0_pay5 P0 P1 P3) slices_S1024x128_o0_0_S1024x1 p (0 : Fin 1) (0 : Fin 128) rfl, pay5_apply]
  exact congrArg (fun t => ((∑ j : Fin 1024, k0_pay2 P0 P1 (ix2 p j) * P3 (ix2 j (0 : Fin 128))) + t) * LNSpec.cInv)
    (rowTotal_apply P2 shapeCasts_S1x1024_S1x1x1024 reduces_S1x1x1024_S1 (.inl rfl) rfl shapeCasts_S1_S1x1x1 inpos_S1x1x1_p0_0_0)

/-- The row variance of y + b, clamped at zero. -/
theorem pay7_apply (P0 P1 : Vec Ideal S1024x1024 .f32) (P3 : Vec Ideal S1024x128 .f32) (P2 : Vec Ideal S1x1024 .f32) (p : Fin 1024) :
    k0_pay7 P0 P1 P3 P2 (ix2 p (0 : Fin 1))
      = max ((((∑ j : Fin 1024, (k0_pay2 P0 P1 (ix2 p j) * k0_pay2 P0 P1 (ix2 p j)) * P3 (ix2 j (0 : Fin 128)))
              + LNSpec.cTwo * ∑ j : Fin 1024, k0_pay2 P0 P1 (ix2 p j) * P3 (ix2 j (1 : Fin 128)))
            + ∑ j : Fin 1024, P2 (ix2 (0 : Fin 1) j) * P2 (ix2 (0 : Fin 1) j)) * LNSpec.cInv
          - k0_pay6 P0 P1 P3 P2 (ix2 p (0 : Fin 1)) * k0_pay6 P0 P1 P3 P2 (ix2 p (0 : Fin 1))) LNSpec.cZero := by
  unfold k0_pay7
  show max (((extractStridedSlice S1024x1 ![0, 0]
            (FloatOps.matmul dot_S1024x1024_S1024x128_S1024x128_1_0_0_1_n_n none (mulf (k0_pay3 P0 P1) (k0_pay3 P0 P1)) (k0_pay4 P3)
              (constant S1024x128 .f32 0x00000000#32)) slices_S1024x128_o0_0_S1024x1 (ix2 p (0 : Fin 1))
          + LNSpec.cTwo * extractStridedSlice S1024x1 ![0, 1] (k0_pay5 P0 P1 P3) slices_S1024x128_o0_1_S1024x1 (ix2 p (0 : Fin 1)))
        + extractAt ![0, 0, 0] (shapeCast S1x1x1 (multiReduction .add [1, 2] S1
            (shapeCast S1x1x1024 (mulf P2 P2) shapeCasts_S1x1024_S1x1x1024)
            0x00000000#32 reduces_S1x1x1024_S1 (.inl rfl) rfl) shapeCasts_S1_S1x1x1) inpos_S1x1x1_p0_0_0) * LNSpec.cInv
      - k0_pay6 P0 P1 P3 P2 (ix2 p (0 : Fin 1)) * k0_pay6 P0 P1 P3 P2 (ix2 p (0 : Fin 1))) LNSpec.cZero = _
  rw [slice2_axis1_apply 0 _ slices_S1024x128_o0_0_S1024x1 p (0 : Fin 1) (0 : Fin 128) rfl,
    slice2_axis1_apply 1 (k0_pay5 P0 P1 P3) slices_S1024x128_o0_1_S1024x1 p (0 : Fin 1) (1 : Fin 128) rfl,
    sq_product_apply, pay5_apply]
  exact congrArg (fun t => max ((((∑ j : Fin 1024, (k0_pay2 P0 P1 (ix2 p j) * k0_pay2 P0 P1 (ix2 p j)) * P3 (ix2 j (0 : Fin 128)))
              + LNSpec.cTwo * ∑ j : Fin 1024, k0_pay2 P0 P1 (ix2 p j) * P3 (ix2 j (1 : Fin 128))) + t) * LNSpec.cInv
          - k0_pay6 P0 P1 P3 P2 (ix2 p (0 : Fin 1)) * k0_pay6 P0 P1 P3 P2 (ix2 p (0 : Fin 1))) LNSpec.cZero)
    (rowTotal_apply (mulf P2 P2) shapeCasts_S1x1024_S1x1x1024 reduces_S1x1x1024_S1 (.inl rfl) rfl shapeCasts_S1_S1x1x1 inpos_S1x1x1_p0_0_0)

/-- The variance's ε at every row. -/
theorem pay8_apply (p : Fin 1024) : (k0_pay8 (F := Ideal)) (ix2 p (0 : Fin 1)) = LNSpec.cEps := rfl

end Cert.KernelIdeal.Hand

end
-- ==== Proof.KernelValue.lean ====
import proofs.«140966_g2000102696666258_pallasbulk_1294_19_alg».proof.Proof.Gen.KernelIdeal.Value
import proofs.«140966_g2000102696666258_pallasbulk_1294_19_alg».proof.Proof.KernelHost
import proofs.«140966_g2000102696666258_pallasbulk_1294_19_alg».proof.Proof.KernelBlock

noncomputable section

open scoped BigOperators

/-
  The kernel's output array after the run, as one function of the argument arrays.

  Grid point t (of 8) stages rows 1024·t … 1024·t + 1023 of x, the whole of w, the whole reduction matrix and the three
  row vectors, and writes back rows 1024·t … 1024·t + 1023 of the result. Entry (p, q) of the block it writes is the
  body's pointwise tree over the product row p, the row statistics of row p and column q of the row vectors; read
  through the blocks that is the kernel's arrangement of the function at global row 1024·t + p. The eight blocks tile
  the array, so the array ends at that function everywhere.
-/
namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: x and the result move down one block of rows per point, everything else stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Global row of row p of the block at point t. -/
def grow (t : Fin cfg0.N) (p : Fin 1024) : Fin 8192 :=
  ⟨t.val * 1024 + p.val, by have ht : t.val < 8 := lt_of_lt_of_eq t.isLt N_0; have := p.isLt; omega⟩

/-! ## The blocks, by their literal types, read through to the arguments -/

abbrev xblk (c : Dev nD) (t : Fin cfg0.N) : Vec Ideal S1024x1024 .f32 := iblk m c 0 t
abbrev wblk (c : Dev nD) (t : Fin cfg0.N) : Vec Ideal S1024x1024 .f32 := iblk m c 1 t
abbrev rblk (c : Dev nD) (t : Fin cfg0.N) : Vec Ideal S1024x128 .f32 := iblk m c 2 t
abbrev bblk (c : Dev nD) (t : Fin cfg0.N) : Vec Ideal S1x1024 .f32 := iblk m c 3 t
abbrev gblk (c : Dev nD) (t : Fin cfg0.N) : Vec Ideal S1x1024 .f32 := iblk m c 4 t
abbrev eblk (c : Dev nD) (t : Fin cfg0.N) : Vec Ideal S1x1024 .f32 := iblk m c 5 t

theorem xblk_apply (c : Dev nD) (t : Fin cfg0.N) (p k : Fin 1024) :
    xblk m c t (ix2 p k) = (m ((c : Thread nD τ).loc main_arg0) : S8192x1024.Idx → EReal) (ix2 (grow t p) k) := by
  obtain ⟨e0, e1, -⟩ := idx_facts t
  show V m c main_arg0 (((cfg0.win 0).blk t).view.emb (ix2 p k)) = _
  rw [V_main_arg0]
  congr 1; funext a; apply Fin.ext
  match a with
  | ⟨0, _⟩ => show win0_0.index t (0 : Fin 2) * 1024 + 1 * p.val = t.val * 1024 + p.val; omega
  | ⟨1, _⟩ => show win0_0.index t (1 : Fin 2) * 1024 + 1 * k.val = k.val; omega

theorem wblk_apply (c : Dev nD) (t : Fin cfg0.N) (k j : Fin 1024) :
    wblk m c t (ix2 k j) = (m ((c : Thread nD τ).loc main_arg1) : S1024x1024.Idx → EReal) (ix2 k j) := by
  obtain ⟨-, -, e0, e1, -⟩ := idx_facts t
  show V m c main_arg1 (((cfg0.win 1).blk t).view.emb (ix2 k j)) = _
  rw [V_main_arg1]
  congr 1; funext a; apply Fin.ext
  match a with
  | ⟨0, _⟩ => show win0_1.index t (0 : Fin 2) * 1024 + 1 * k.val = k.val; omega
  | ⟨1, _⟩ => show win0_1.index t (1 : Fin 2) * 1024 + 1 * j.val = j.val; omega

theorem rblk_emb (c : Dev nD) (t : Fin cfg0.N) (j : Fin 1024) (q : Fin 128) :
    rblk m c t (ix2 j q) = (V m c main_v6 : S1024x128.Idx → EReal) (ix2 j q) := by
  obtain ⟨-, -, -, -, e0, e1, -⟩ := idx_facts t
  show V m c main_v6 (((cfg0.win 2).blk t).view.emb (ix2 j q)) = _
  congr 1; funext a; apply Fin.ext
  match a with
  | ⟨0, _⟩ => show win0_2.index t (0 : Fin 2) * 1024 + 1 * j.val = j.val; omega
  | ⟨1, _⟩ => show win0_2.index t (1 : Fin 2) * 128 + 1 * q.val = q.val; omega

theorem bblk_apply (c : Dev nD) (t : Fin cfg0.N) (j : Fin 1024) :
    bblk m c t (ix2 (0 : Fin 1) j) = (m ((c : Thread nD τ).loc main_arg2) : S1x1024.Idx → EReal) (ix2 (0 : Fin 1) j) := by
  obtain ⟨-, -, -, -, -, -, e0, e1, -⟩ := idx_facts t
  show V m c main_arg2 (((cfg0.win 3).blk t).view.emb (ix2 (0 : Fin 1) j)) = _
  rw [V_main_arg2]
  congr 1; funext a; apply Fin.ext
  match a with
  | ⟨0, _⟩ => show win0_3.index t (0 : Fin 2) * 1 + 1 * 0 = 0; omega
  | ⟨1, _⟩ => show win0_3.index t (1 : Fin 2) * 1024 + 1 * j.val = j.val; omega

theorem gblk_apply (c : Dev nD) (t : Fin cfg0.N) (j : Fin 1024) :
    gblk m c t (ix2 (0 : Fin 1) j) = (m ((c : Thread nD τ).loc main_arg3) : S1x1024.Idx → EReal) (ix2 (0 : Fin 1) j) := by
  obtain ⟨-, -, -, -, -, -, -, -, e0, e1, -⟩ := idx_facts t
  show V m c main_arg3 (((cfg0.win 4).blk t).view.emb (ix2 (0 : Fin 1) j)) = _
  rw [V_main_arg3]
  congr 1; funext a; apply Fin.ext
  match a with
  | ⟨0, _⟩ => show win0_4.index t (0 : Fin 2) * 1 + 1 * 0 = 0; omega
  | ⟨1, _⟩ => show win0_4.index t (1 : Fin 2) * 1024 + 1 * j.val = j.val; omega

theorem eblk_apply (c : Dev nD) (t : Fin cfg0.N) (j : Fin 1024) :
    eblk m c t (ix2 (0 : Fin 1) j) = (m ((c : Thread nD τ).loc main_arg4) : S1x1024.Idx → EReal) (ix2 (0 : Fin 1) j) := by
  obtain ⟨-, -, -, -, -, -, -, -, -, -, e0, e1, -⟩ := idx_facts t
  show V m c main_arg4 (((cfg0.win 5).blk t).view.emb (ix2 (0 : Fin 1) j)) = _
  rw [V_main_arg4]
  congr 1; funext a; apply Fin.ext
  match a with
  | ⟨0, _⟩ => show win0_5.index t (0 : Fin 2) * 1 + 1 * 0 = 0; omega
  | ⟨1, _⟩ => show win0_5.index t (1 : Fin 2) * 1024 + 1 * j.val = j.val; omega

/-! ## One entry of the block a point writes -/

/-- Over blocks that agree with the arrays X, W, b, g, β at global row r (and whose reduction matrix has ones in column
    0 and b in column 1), entry (p, q) of the body's result is the kernel's arrangement at (r, q). -/
theorem entry_eq (X : LNSpec.SX.Idx → EReal) (W : LNSpec.SW.Idx → EReal) (b g β : LNSpec.SV.Idx → EReal) (r : Fin 8192)
    (P0 P1 : Vec Ideal S1024x1024 .f32) (P2 : Vec Ideal S1x1024 .f32) (P3 : Vec Ideal S1024x128 .f32) (P4 P5 : Vec Ideal S1x1024 .f32)
    (p : Fin 1024)
    (h0 : ∀ k : Fin 1024, P0 (ix2 p k) = X (ix2 r k)) (h1 : ∀ k j : Fin 1024, P1 (ix2 k j) = W (ix2 k j))
    (h2 : ∀ j : Fin 1024, P2 (ix2 (0 : Fin 1) j) = b (ix2 (0 : Fin 1) j))
    (h30 : ∀ j : Fin 1024, P3 (ix2 j (0 : Fin 128)) = LNSpec.cOne)
    (h31 : ∀ j : Fin 1024, P3 (ix2 j (1 : Fin 128)) = b (ix2 (0 : Fin 1) j))
    (h4 : ∀ j : Fin 1024, P4 (ix2 (0 : Fin 1) j) = g (ix2 (0 : Fin 1) j))
    (h5 : ∀ j : Fin 1024, P5 (ix2 (0 : Fin 1) j) = β (ix2 (0 : Fin 1) j)) (q : Fin 1024) :
    Cert.KernelIdeal.Value.E6 P0 P1 P2 P3 P4 P5 (ix2 p q) = LNSpec.kernelOutAt X W b g β r q := by
  have i0 : Cert.KernelIdeal.Value.ix6_0 (ix2 p q) = ix2 p q := funext fun a => by
    match a with | ⟨0, _⟩ => rfl | ⟨1, _⟩ => rfl
  have i1 : Cert.KernelIdeal.Value.ix6_1 (ix2 p q) = ix2 (0 : Fin 1) q := funext fun a => by
    match a with | ⟨0, _⟩ => rfl | ⟨1, _⟩ => rfl
  have i2 : Cert.KernelIdeal.Value.ix6_2 (ix2 p q) = ix2 p (0 : Fin 1) := funext fun a => by
    match a with | ⟨0, _⟩ => rfl | ⟨1, _⟩ => rfl
  show max ((((k0_pay2 P0 P1 (Cert.KernelIdeal.Value.ix6_0 (ix2 p q)) + P2 (Cert.KernelIdeal.Value.ix6_1 (ix2 p q)))
        - k0_pay6 P0 P1 P3 P2 (Cert.KernelIdeal.Value.ix6_2 (ix2 p q)))
      * Ideal.rsqrt (k0_pay7 P0 P1 P3 P2 (Cert.KernelIdeal.Value.ix6_2 (ix2 p q)) + (k0_pay8 (F := Ideal)) (Cert.KernelIdeal.Value.ix6_2 (ix2 p q))))
      * P4 (Cert.KernelIdeal.Value.ix6_1 (ix2 p q)) + P5 (Cert.KernelIdeal.Value.ix6_1 (ix2 p q))) (Ideal.ofBits .f32 0x00000000#32) = _
  rw [i0, i1, i2]
  simp only [pay6_apply, pay7_apply, pay8_apply, pay2_apply, h0, h1, h2, h30, h31, h4, h5]
  rfl

/-! ## What a point writes back, the cover, the array -/

/-- What point t writes back is block t of the kernel's arrangement of the arguments. -/
theorem flushed_eq (c : Dev nD) (t : Fin cfg0.N) :
    (dats m 0 c).flushed 6 t = ((cfg0.win 6).blk t).view.read (Elt Ideal)
      (LNSpec.kernelOut (m ((c : Thread nD τ).loc main_arg0)) (m ((c : Thread nD τ).loc main_arg1)) (m ((c : Thread nD τ).loc main_arg2))
          (m ((c : Thread nD τ).loc main_arg3)) (m ((c : Thread nD τ).loc main_arg4))) := by
  rw [Cert.KernelIdeal.Value.flushed6]
  unfold out0_6
  simp only [View.ld_unit_zero (S := S1024x1024) hz, View.ld_unit_zero (S := S1024x128) hz, View.ld_unit_zero (S := S1x1024) hz]
  obtain ⟨-, -, -, -, -, -, -, -, -, -, -, -, e0, e1⟩ := idx_facts t
  funext y
  obtain ⟨p, q, rfl⟩ : ∃ (p q : Fin 1024), y = ix2 p q := ⟨y 0, y 1, eq_ix2 y⟩
  show View.canon ([⟨r0_0, k0_pay1 (k0_pay2 (xblk m c t) (wblk m c t)) (bblk m c t) (k0_pay6 (xblk m c t) (wblk m c t) (rblk m c t) (bblk m c t))
      (k0_pay7 (xblk m c t) (wblk m c t) (rblk m c t) (bblk m c t)) (k0_pay8 (F := Ideal)) (gblk m c t) (eblk m c t)⟩] : List (View.Piece (Elt Ideal) S1024x1024 .f32)) (ix2 p q)
    = LNSpec.kernelOut _ _ _ _ _ (((cfg0.win 6).blk t).view.emb (ix2 p q))
  rw [Cert.KernelIdeal.Value.canon6_eq]
  have hidx : ((cfg0.win 6).blk t).view.emb (ix2 p q) = (ix2 (grow t p) q : S8192x1024.Idx) := by
    funext a; apply Fin.ext
    match a with
    | ⟨0, _⟩ => show win0_6.index t (0 : Fin 2) * 1024 + 1 * p.val = t.val * 1024 + p.val; omega
    | ⟨1, _⟩ => show win0_6.index t (1 : Fin 2) * 1024 + 1 * q.val = q.val; omega
  rw [hidx]
  exact entry_eq _ _ _ _ _ (grow t p) _ _ _ _ _ _ p (fun k => xblk_apply m c t p k) (fun k j => wblk_apply m c t k j)
    (fun j => bblk_apply m c t j) (fun j => (rblk_emb m c t j 0).trans (V_main_v6_col0 m c j))
    (fun j => (rblk_emb m c t j 1).trans (V_main_v6_col1 m c j)) (fun j => gblk_apply m c t j) (fun j => eblk_apply m c t j) q

/-- An index of the array is in point t's block iff each coordinate is in the block's range on its axis. -/
theorem mem_blk (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v7).slice (win0_6.rect t)).set ↔ _
  rw [View.set_slice_whole, Rect.mem_set_unit]
  exact Iff.rfl

/-- Every row lies in the block of the point that owns its group of 1024 rows. -/
theorem cover (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  let t : Fin cfg0.N := ⟨(i 0).val / 1024, by show _ < grid0.N; rw [N_0]; omega⟩
  have htv : t.val = (i 0).val / 1024 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- After the run the output array is the kernel's arrangement of the function, of the argument arrays as launched. -/
theorem final (c : Dev nD) :
    (dats m 0 c).arrAt 6 cfg0.N
      = LNSpec.kernelOut (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 6 _ (fun t _ => flushed_eq m c t) cover

theorem run : θ_run defs (onTc (τ := τ) (main (F := Ideal))) ⟨m, fun _ => 0, ρ⟩ fun r => ∀ c : Dev nD,
      r.2.mem ((c : Thread nD τ).loc main_v7)
        = LNSpec.kernelOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Hand

end
-- ==== Proof.RefHost.lean ====
import proofs.«140966_g2000102696666258_pallasbulk_1294_19_alg».proof.Proof.Gen.ReferenceIdeal.Frame
import proofs.«140966_g2000102696666258_pallasbulk_1294_19_alg».proof.Proof.LibScatterSet
import proofs.«140966_g2000102696666258_pallasbulk_1294_19_alg».proof.Proof.Spec
import Idealize.ShloMosaic.Lib.StableHlo.Run

noncomputable section

open scoped BigOperators

namespace Idealize.ShloMosaic

/-- A scatter of a whole rank-2 array onto itself (both axes window axes, nothing inserted, no start index read): every
    update index lands on itself. -/
theorem ScatterDims.resultIdx?_whole2 {sz : Fin 2 → Nat} {si : Shape} {w : Nat} (d : ScatterDims ⟨2, sz⟩ si ⟨2, sz⟩)
    (hu : d.updateWindowDims = [0, 1]) (hi : d.insertedWindowDims = []) (hs : d.scatterDimsToOperandDims = [])
    (j : Shape.Idx ⟨2, sz⟩) (idx : IVec si w) : d.resultIdx? j idx = some j := by
  obtain ⟨uw, iw, sd, iv, wf⟩ := d
  dsimp only at hu hi hs
  subst hu hi hs
  have hstart : ∀ a, ScatterDims.start ⟨[0, 1], [], [], iv, wf⟩ j idx a = 0 := fun a => dif_neg List.not_mem_nil
  have hwin : ∀ a : Fin 2, ScatterDims.window ⟨[0, 1], [], [], iv, wf⟩ j a = (j a).val := by
    refine Fin.forall_fin_two.mpr ⟨rfl, rfl⟩
  unfold ScatterDims.resultIdx?
  rw [dif_pos (fun a => by rw [hstart, hwin]; exact ⟨by omega, by have := (j a).isLt; omega⟩)]
  congr 1; funext a; apply Fin.ext
  dsimp only
  rw [hstart, hwin]; omega

/-- … so such a scatter whose body returns the update is the update itself, whatever the operand held. -/
theorem Host.scatter_set_whole2 {α : Type} {sz : Fin 2 → Nat} {si : Shape} {w : Nat} (d : ScatterDims ⟨2, sz⟩ si ⟨2, sz⟩)
    (hu : d.updateWindowDims = [0, 1]) (hi : d.insertedWindowDims = []) (hs : d.scatterDimsToOperandDims = [])
    (x : Shape.Idx ⟨2, sz⟩ → α) (idx : IVec si w) (upd : Shape.Idx ⟨2, sz⟩ → α) :
    Host.scatter d (fun _ b => b) x idx upd = upd := by
  funext i
  have h : ∀ j, d.resultIdx? j idx = some j := fun j => d.resultIdx?_whole2 hu hi hs j idx
  exact Host.scatter_set_apply_of_hit d x idx upd i i (h i)
    (fun j' hj' => by rw [h j'] at hj'; exact Option.some.inj hj')

end Idealize.ShloMosaic

namespace Cert.ReferenceIdeal.Hand

open Cert.ReferenceIdeal Cert.ReferenceIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! The five paddings are no-ops at these shapes: each is a whole-array `.at[:, :].set` into a constant array, so the
    region finds each operand equal to the argument it was made from. -/

theorem V_main_v1 (c : Dev nD) : (V m c main_v1 : S8192x1024.Idx → EReal) = (m ((c : Thread nD τ).loc main_arg0) : S8192x1024.Idx → EReal) := by
  have e : (V m c main_v1 : S8192x1024.Idx → EReal)
      = Host.scatter (w := 32) scatter_S8192x1024_S0_S8192x1024_01_n_n_0 (fun _ b => b)
          (broadcastInDim S8192x1024 ![] Facts₀.bcast_S_S8192x1024 (constant (F := Ideal) S_ .f32 0x00000000#32))
          (emptyVec S0 Facts₀.hz_S0) (m ((c : Thread nD τ).loc main_arg0)) := by
    dsimp only [Gen.V, Gen.hostOps0]; after_results
  rw [e]
  exact Host.scatter_set_whole2 _ rfl rfl rfl _ _ _
theorem V_main_v3 (c : Dev nD) : (V m c main_v3 : S1024x1024.Idx → EReal) = (m ((c : Thread nD τ).loc main_arg1) : S1024x1024.Idx → EReal) := by
  have e : (V m c main_v3 : S1024x1024.Idx → EReal)
      = Host.scatter (w := 32) scatter_S1024x1024_S0_S1024x1024_01_n_n_0 (fun _ b => b)
          (broadcastInDim S1024x1024 ![] Facts₀.bcast_S_S1024x1024 (constant (F := Ideal) S_ .f32 0x00000000#32))
          (emptyVec S0 Facts₀.hz_S0) (m ((c : Thread nD τ).loc main_arg1)) := by
    dsimp only [Gen.V, Gen.hostOps0]; after_results
  rw [e]
  exact Host.scatter_set_whole2 _ rfl rfl rfl _ _ _
theorem V_main_v5 (c : Dev nD) : (V m c main_v5 : S1x1024.Idx → EReal) = (m ((c : Thread nD τ).loc main_arg2) : S1x1024.Idx → EReal) := by
  have e : (V m c main_v5 : S1x1024.Idx → EReal)
      = Host.scatter (w := 32) scatter_S1x1024_S0_S1x1024_01_n_n_0 (fun _ b => b)
          (broadcastInDim S1x1024 ![] Facts₀.bcast_S_S1x1024 (constant (F := Ideal) S_ .f32 0x00000000#32))
          (emptyVec S0 Facts₀.hz_S0) (m ((c : Thread nD τ).loc main_arg2)) := by
    dsimp only [Gen.V, Gen.hostOps0]; after_results
  rw [e]
  exact Host.scatter_set_whole2 _ rfl rfl rfl _ _ _
theorem V_main_v7 (c : Dev nD) : (V m c main_v7 : S1x1024.Idx → EReal) = (m ((c : Thread nD τ).loc main_arg3) : S1x1024.Idx → EReal) := by
  have e : (V m c main_v7 : S1x1024.Idx → EReal)
      = Host.scatter (w := 32) scatter_S1x1024_S0_S1x1024_01_n_n_0 (fun _ b => b)
          (broadcastInDim S1x1024 ![] Facts₀.bcast_S_S1x1024 (constant (F := Ideal) S_ .f32 0x3F800000#32))
          (emptyVec S0 Facts₀.hz_S0) (m ((c : Thread nD τ).loc main_arg3)) := by
    dsimp only [Gen.V, Gen.hostOps0]; after_results
  rw [e]
  exact Host.scatter_set_whole2 _ rfl rfl rfl _ _ _
theorem V_main_v9 (c : Dev nD) : (V m c main_v9 : S1x1024.Idx → EReal) = (m ((c : Thread nD τ).loc main_arg4) : S1x1024.Idx → EReal) := by
  have e : (V m c main_v9 : S1x1024.Idx → EReal)
      = Host.scatter (w := 32) scatter_S1x1024_S0_S1x1024_01_n_n_0 (fun _ b => b)
          (broadcastInDim S1x1024 ![] Facts₀.bcast_S_S1x1024 (constant (F := Ideal) S_ .f32 0x00000000#32))
          (emptyVec S0 Facts₀.hz_S0) (m ((c : Thread nD τ).loc main_arg4)) := by
    dsimp only [Gen.V, Gen.hostOps0]; after_results
  rw [e]
  exact Host.scatter_set_whole2 _ rfl rfl rfl _ _ _

end Cert.ReferenceIdeal.Hand

end
-- ==== Proof.RefPieces.lean ====
import proofs.«140966_g2000102696666258_pallasbulk_1294_19_alg».proof.Proof.Gen.ReferenceIdeal.Frame
import Idealize.ShloMosaic.Lib.Pipeline.Value

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]

/-- The zero offset of a rank-2 rectangle, written as a literal vector, is the constant zero function. -/
theorem hz : (![0, 0] : Fin 2 → Nat) = fun _ => 0 := by
  funext a; fin_cases a <;> rfl

/-- At the first point of a row tile's pair the accumulator is reset to the broadcast bias and the first half-product is
    added to it: what that point leaves in the accumulator. -/
theorem sout0_A_0_eq (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x512 .f32) (x1 : Vec F S512x1024 .f32) (x2 : Vec F S1x1024 .f32) (x3 : Vec F S1x1024 .f32) (x4 : Vec F S1x1024 .f32) :
    sout0_A_0 c i arg2 harg2 arg3 harg3 arg4 harg4 arg5 harg5 arg6 harg6 arg7 harg7 arg8 harg8 hc0 hc1 x0 x1 x2 x3 x4 = k0_pay2 (k0_pay1 x2) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  -- Two stores, each through the whole rectangle at offset zero: the later one decides every entry. Its payload adds
  -- the half-product to the accumulator read back whole after the first store, that is to the first store's payload,
  -- the broadcast bias.
  rw [View.canon_cons_unit_zero (S := S512x1024) hz, View.readCov_unit_zero (S := S512x1024) _ hz]
  -- Each remaining load reads a whole buffer at offset zero: it returns the buffer's contents.
  simp only [View.readAt_eq_ld, harg2.read_unread, harg3.read_unread, harg4.read_unread,
    View.ld_unit_zero (S := S512x512) hz, View.ld_unit_zero (S := S512x1024) hz, View.ld_unit_zero (S := S1x1024) hz]

/-- At the second point the half-product is added to what the first point left. -/
theorem sout0_B_0_eq (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x512 .f32) (x1 : Vec F S512x1024 .f32) (x2 : Vec F S1x1024 .f32) (x3 : Vec F S1x1024 .f32) (x4 : Vec F S1x1024 .f32) (xs0 : Vec F S512x1024 .f32) :
    sout0_B_0 c i arg2 harg2 arg3 harg3 arg4 harg4 arg5 harg5 arg6 harg6 arg7 harg7 arg8 harg8 hc0 hc1 x0 x1 x2 x3 x4 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  -- One store through the whole rectangle at offset zero: the accumulator ends as its payload.
  rw [View.canon_unit_zero hz]
  -- The payload's loads read whole buffers at offset zero; the accumulator's is what the point before left.
  simp only [View.readAt_eq_ld, harg2.read_unread, harg3.read_unread, harg8.read_unread,
    View.ld_unit_zero (S := S512x512) hz, View.ld_unit_zero (S := S512x1024) hz]

/-- … and the output block is the normalised, scaled, shifted and clamped accumulator. -/
theorem out0_B_5_eq (c : Dev nD) (i : grid0.Coords) (arg2 : Memref sig .tc .vmem S512x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x512 .f32) (x1 : Vec F S512x1024 .f32) (x2 : Vec F S1x1024 .f32) (x3 : Vec F S1x1024 .f32) (x4 : Vec F S1x1024 .f32) (xs0 : Vec F S512x1024 .f32) :
    out0_B_5 c i arg2 harg2 arg3 harg3 arg4 harg4 arg5 harg5 arg6 harg6 arg7 harg7 arg8 harg8 hc0 hc1 x0 x1 x2 x3 x4 xs0 = k0_pay3 (k0_pay2 xs0 x0 x1) x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  -- One store through the whole rectangle at offset zero: the output block ends as its payload.
  rw [View.canon_unit_zero hz]
  -- Its first argument is the accumulator read back whole after this point's store, that is that store's payload;
  -- every other load reads a whole buffer at offset zero.
  simp only [View.readAt_eq_ld, harg2.read_unread, harg3.read_unread, harg5.read_unread, harg6.read_unread,
    harg8.read_unread, View.ld_unit_zero (S := S512x512) hz, View.ld_unit_zero (S := S512x1024) hz,
    View.ld_unit_zero (S := S1x1024) hz, View.readCov_unit_zero (S := S512x1024) _ hz]

end Cert.ReferenceIdeal.Hand

end
-- ==== Proof.RefBlock.lean ====
import proofs.«140966_g2000102696666258_pallasbulk_1294_19_alg».proof.Proof.Gen.ReferenceIdeal.Skeleton
import proofs.«140966_g2000102696666258_pallasbulk_1294_19_alg».proof.Proof.Spec
import Idealize.ShloMosaic.PureOps.Ideal.Laws
import Idealize.ShloMosaic.Lib.Pipeline.Value
import Idealize.ShloMosaic.Lib.ValueLayout

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.Pipeline (Dat)
open Idealize.ShloMosaic.ValueIdx

/-- The bias row broadcast down the tile. -/
theorem rpay1_apply (x2 : Vec Ideal S1x1024 .f32) (p : Fin 512) (q : Fin 1024) :
    k0_pay1 x2 (ix2 p q) = x2 (ix2 (0 : Fin 1) q) := by
  unfold k0_pay1
  rw [shapeCast_self, shapeCast_self, shapeCast_self]
  exact broadcastTo_1b_ab_apply x2 _ p q

/-! ## A half-product: a [512,512] tile times a [512,1024] tile

The contraction runs over the left operand's columns and the right operand's rows. At output position (p, q) and
contraction position k the left operand is read at (p, k) and the right one at (k, q): one fact per operand axis. -/

/-- Left operand, row axis: the output's row. -/
private theorem lhs_row (j : S512x1024.Idx) (k : dot_S512x512_S512x1024_S512x1024_1_0_0_1_n_n.contr.Idx) :
    (dot_S512x512_S512x1024_S512x1024_1_0_0_1_n_n.lhsIdx j k 0 : ℕ) = j 0 := by
  simp [DotDims.lhsIdx, dot_S512x512_S512x1024_S512x1024_1_0_0_1_n_n]; rfl

/-- Left operand, column axis: the contraction position. -/
private theorem lhs_col (j : S512x1024.Idx) (k : dot_S512x512_S512x1024_S512x1024_1_0_0_1_n_n.contr.Idx) :
    (dot_S512x512_S512x1024_S512x1024_1_0_0_1_n_n.lhsIdx j k 1 : ℕ) = k ⟨0, by decide⟩ :=
  dot_S512x512_S512x1024_S512x1024_1_0_0_1_n_n.lhsIdx_val_of_single rfl j k

/-- Right operand, row axis: the contraction position. -/
private theorem rhs_row (j : S512x1024.Idx) (k : dot_S512x512_S512x1024_S512x1024_1_0_0_1_n_n.contr.Idx) :
    (dot_S512x512_S512x1024_S512x1024_1_0_0_1_n_n.rhsIdx j k 0 : ℕ) = k ⟨0, by decide⟩ :=
  dot_S512x512_S512x1024_S512x1024_1_0_0_1_n_n.rhsIdx_val_of_single rfl j k

/-- Right operand, column axis: the output's column. -/
private theorem rhs_col (j : S512x1024.Idx) (k : dot_S512x512_S512x1024_S512x1024_1_0_0_1_n_n.contr.Idx) :
    (dot_S512x512_S512x1024_S512x1024_1_0_0_1_n_n.rhsIdx j k 1 : ℕ) = j 1 := by
  simp [DotDims.rhsIdx, dot_S512x512_S512x1024_S512x1024_1_0_0_1_n_n]; rfl

/-- The product accumulated into the zero tile, at (p, q): the sum over the 512 contraction positions. -/
private theorem halfProduct_apply (a : FVec Ideal S512x512 .f32) (b : FVec Ideal S512x1024 .f32) (p : Fin 512) (q : Fin 1024) :
    matmul dot_S512x512_S512x1024_S512x1024_1_0_0_1_n_n none a b (constant (F := Ideal) S512x1024 .f32 0x00000000#32) (ix2 p q)
      = ∑ k : Fin 512, a (ix2 p k) * b (ix2 k q) := by
  refine (Ideal.matmul_constant_zero_apply dot_S512x512_S512x1024_S512x1024_1_0_0_1_n_n none a b (ix2 p q)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have hl : dot_S512x512_S512x1024_S512x1024_1_0_0_1_n_n.lhsIdx (ix2 p q)
      ((contrEquiv1 dot_S512x512_S512x1024_S512x1024_1_0_0_1_n_n 512 rfl rfl).symm k) = ix2 p k := by
    funext ax
    refine Fin.ext ?_
    match ax with
    | ⟨0, _⟩ => exact lhs_row _ _
    | ⟨1, _⟩ => exact (lhs_col _ _).trans hk
  have hr : dot_S512x512_S512x1024_S512x1024_1_0_0_1_n_n.rhsIdx (ix2 p q)
      ((contrEquiv1 dot_S512x512_S512x1024_S512x1024_1_0_0_1_n_n 512 rfl rfl).symm k) = ix2 k q := by
    funext ax
    refine Fin.ext ?_
    match ax with
    | ⟨0, _⟩ => exact (rhs_row _ _).trans hk
    | ⟨1, _⟩ => exact rhs_col _ _
  rw [hl, hr]

/-- The accumulator plus a half-product. -/
theorem rpay2_apply (acc : Vec Ideal S512x1024 .f32) (x0 : Vec Ideal S512x512 .f32) (x1 : Vec Ideal S512x1024 .f32) (p : Fin 512) (q : Fin 1024) :
    k0_pay2 acc x0 x1 (ix2 p q) = acc (ix2 p q) + ∑ k : Fin 512, x0 (ix2 p k) * x1 (ix2 k q) := by
  unfold k0_pay2
  rw [shapeCast_self, shapeCast_self, shapeCast_self]
  exact congrArg (acc (ix2 p q) + ·) (halfProduct_apply x0 x1 p q)

/-! ## The epilogue's layout operations, one position at a time -/

/-- The sum along a row of a [512,1024] tile, kept as a [512] vector: at row p, the sum of that row's 1024 entries. -/
private theorem rowSum_apply (v : FVec Ideal S512x1024 .f32) (h : S512x1024.Reduces [1] S512) (hφ : FKind.Formats .f32)
    (hacc : (0x00000000#32 : BitVec 32) = FKind.add.neutral .f32 hφ) (p : Fin 512) :
    multiReduction (F := Ideal) .add [1] S512 v 0x00000000#32 h hφ hacc (ix1 p) = ∑ k : Fin 1024, v (ix2 p k) := by
  refine (Ideal.multiReduction_add_single v 0x00000000#32 h hφ hacc (ix1 p)).trans ?_
  refine Finset.sum_congr rfl fun k _ => congrArg v ?_
  funext ax
  refine Fin.ext ?_
  match ax with
  | ⟨0, _⟩ => rfl
  | ⟨1, _⟩ => rfl

/-- A [512] vector viewed as a [512,1] column: row p of the column is entry p of the vector. -/
private theorem column_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A [512,1] column broadcast along the rows of a [512,1024] tile: at (p, q), the column's entry in row p. -/
private theorem columnBroadcast_apply {α : Type} (v : S512x1.Idx → α) (h : S512x1.Broadcasts S512x1024) (p : Fin 512) (q : Fin 1024) :
    broadcastTo S512x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The reciprocal square root of a vector, entry by entry. -/
private theorem rsqrt_apply {s : Shape} {φ : FTy} (a : FVec Ideal s φ) (i : s.Idx) : rsqrt a i = Ideal.rsqrt (a i) := rfl

/-- The epilogue on an accumulator tile z: row statistics, normalisation, scale, shift, clamp. -/
theorem rpay3_apply (z : Vec Ideal S512x1024 .f32) (g β : Vec Ideal S1x1024 .f32) (p : Fin 512) (q : Fin 1024) :
    k0_pay3 z g β (ix2 p q)
      = max ((((z (ix2 p q) - (∑ j : Fin 1024, z (ix2 p j)) * LNSpec.cInv)
              * Ideal.rsqrt (max ((∑ j : Fin 1024, z (ix2 p j) * z (ix2 p j)) * LNSpec.cInv
                    - ((∑ j : Fin 1024, z (ix2 p j)) * LNSpec.cInv) * ((∑ j : Fin 1024, z (ix2 p j)) * LNSpec.cInv)) LNSpec.cZero + LNSpec.cEps))
            * g (ix2 (0 : Fin 1) q)) + β (ix2 (0 : Fin 1) q)) LNSpec.cZero := by
  unfold k0_pay3
  simp only [maximumf_apply, addf_apply, mulf_apply, subf_apply, broadcast_apply, rsqrt_apply,
    columnBroadcast_apply, broadcastTo_1b_ab_apply, column_apply, shapeCast_self]
  -- the two row sums remain: of z and of its squares
  have hsum : multiReduction (F := Ideal) .add [1] S512 z 0x00000000#32 reduces_S512x1024_S512 (.inl rfl) rfl (ix1 p)
      = ∑ j : Fin 1024, z (ix2 p j) := rowSum_apply z _ _ _ p
  have hsq : multiReduction (F := Ideal) .add [1] S512 (mulf z z) 0x00000000#32 reduces_S512x1024_S512 (.inl rfl) rfl (ix1 p)
      = ∑ j : Fin 1024, z (ix2 p j) * z (ix2 p j) := rowSum_apply (mulf z z) _ _ _ p
  rw [← hsq, ← hsum]
  exact rfl

end Cert.ReferenceIdeal.Hand

end
-- ==== Proof.RefValue.lean ====
import proofs.«140966_g2000102696666258_pallasbulk_1294_19_alg».proof.Proof.Gen.ReferenceIdeal.Value
import proofs.«140966_g2000102696666258_pallasbulk_1294_19_alg».proof.Proof.RefHost
import proofs.«140966_g2000102696666258_pallasbulk_1294_19_alg».proof.Proof.RefPieces
import proofs.«140966_g2000102696666258_pallasbulk_1294_19_alg».proof.Proof.RefBlock

noncomputable section

open scoped BigOperators

/-
  The reference's output array after the run, as one function of the argument arrays.

  The grid is 16 row tiles × 2 halves of the contraction axis, the half the fast coordinate: point 2u stages rows
  512·u … 512·u + 511 of x against columns 0 … 511 and rows 0 … 511 of w, resets the accumulator tile to the broadcast bias
  and adds that half-product; point 2u + 1 stages the other half, adds it, and — only there — normalises the accumulator
  and writes the output tile back. So what point 2u + 1 writes is the epilogue of (b + first half-product) + second
  half-product, which read through the blocks is the reference's arrangement of the function at global row 512·u + p.
  The sixteen written tiles cover the array.
-/
namespace Cert.ReferenceIdeal.Hand

open Cert.ReferenceIdeal Cert.ReferenceIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The printed index maps over the 32 points: x by (row tile, half), w by (half, 0), the result by (row tile, 0). -/
theorem idx_facts : ∀ t : Fin cfg0.N,
    win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

theorem lt32 (t : Fin cfg0.N) : t.val < 32 := lt_of_lt_of_eq t.isLt N_0

/-- Global row of row p of the tile of point t. -/
def grow (t : Fin cfg0.N) (p : Fin 512) : Fin 8192 :=
  ⟨t.val / 2 * 512 + p.val, by have ht := lt32 t; have := p.isLt; omega⟩

/-- Global position on the contraction axis of position k of the half staged at point t. -/
def gcol (t : Fin cfg0.N) (k : Fin 512) : Fin 1024 :=
  ⟨t.val % 2 * 512 + k.val, by have := k.isLt; have := Nat.mod_lt t.val (by decide : 0 < 2); omega⟩

/-- The point before. -/
def prev (t : Fin cfg0.N) : Fin cfg0.N := ⟨t.val - 1, Nat.lt_of_le_of_lt (Nat.sub_le _ _) t.isLt⟩

/-! ## The blocks, by their literal types, read through to the arguments -/

abbrev xblk (c : Dev nD) (t : Fin cfg0.N) : Vec Ideal S512x512 .f32 := iblk m c 0 t
abbrev wblk (c : Dev nD) (t : Fin cfg0.N) : Vec Ideal S512x1024 .f32 := iblk m c 1 t
abbrev bblk (c : Dev nD) (t : Fin cfg0.N) : Vec Ideal S1x1024 .f32 := iblk m c 2 t
abbrev gblk (c : Dev nD) (t : Fin cfg0.N) : Vec Ideal S1x1024 .f32 := iblk m c 3 t
abbrev eblk (c : Dev nD) (t : Fin cfg0.N) : Vec Ideal S1x1024 .f32 := iblk m c 4 t

theorem xblk_apply (c : Dev nD) (t : Fin cfg0.N) (p k : Fin 512) :
    xblk m c t (ix2 p k) = (m ((c : Thread nD τ).loc main_arg0) : S8192x1024.Idx → EReal) (ix2 (grow t p) (gcol t k)) := by
  obtain ⟨e0, e1, -⟩ := idx_facts t
  have hV : xblk m c t = ((cfg0.win 0).blk t).view.read (Elt Ideal) (m ((c : Thread nD τ).loc main_arg0)) := by
    show ((cfg0.win 0).blk t).view.read (Elt Ideal) (V m c main_v1) = _
    rw [V_main_v1]
  rw [hV]
  show (m ((c : Thread nD τ).loc main_arg0) : S8192x1024.Idx → EReal) (((cfg0.win 0).blk t).view.emb (ix2 p k)) = _
  congr 1; funext a; apply Fin.ext
  match a with
  | ⟨0, _⟩ => show win0_0.index t (0 : Fin 2) * 512 + 1 * p.val = t.val / 2 * 512 + p.val; omega
  | ⟨1, _⟩ => show win0_0.index t (1 : Fin 2) * 512 + 1 * k.val = t.val % 2 * 512 + k.val; omega

theorem wblk_apply (c : Dev nD) (t : Fin cfg0.N) (k : Fin 512) (j : Fin 1024) :
    wblk m c t (ix2 k j) = (m ((c : Thread nD τ).loc main_arg1) : S1024x1024.Idx → EReal) (ix2 (gcol t k) j) := by
  obtain ⟨-, -, e0, e1, -⟩ := idx_facts t
  have hV : wblk m c t = ((cfg0.win 1).blk t).view.read (Elt Ideal) (m ((c : Thread nD τ).loc main_arg1)) := by
    show ((cfg0.win 1).blk t).view.read (Elt Ideal) (V m c main_v3) = _
    rw [V_main_v3]
  rw [hV]
  show (m ((c : Thread nD τ).loc main_arg1) : S1024x1024.Idx → EReal) (((cfg0.win 1).blk t).view.emb (ix2 k j)) = _
  congr 1; funext a; apply Fin.ext
  match a with
  | ⟨0, _⟩ => show win0_1.index t (0 : Fin 2) * 512 + 1 * k.val = t.val % 2 * 512 + k.val; omega
  | ⟨1, _⟩ => show win0_1.index t (1 : Fin 2) * 1024 + 1 * j.val = j.val; omega

theorem bblk_apply (c : Dev nD) (t : Fin cfg0.N) (j : Fin 1024) :
    bblk m c t (ix2 (0 : Fin 1) j) = (m ((c : Thread nD τ).loc main_arg2) : S1x1024.Idx → EReal) (ix2 (0 : Fin 1) j) := by
  obtain ⟨-, -, -, -, e0, e1, -⟩ := idx_facts t
  have hV : bblk m c t = ((cfg0.win 2).blk t).view.read (Elt Ideal) (m ((c : Thread nD τ).loc main_arg2)) := by
    show ((cfg0.win 2).blk t).view.read (Elt Ideal) (V m c main_v5) = _
    rw [V_main_v5]
  rw [hV]
  show (m ((c : Thread nD τ).loc main_arg2) : S1x1024.Idx → EReal) (((cfg0.win 2).blk t).view.emb (ix2 (0 : Fin 1) j)) = _
  congr 1; funext a; apply Fin.ext
  match a with
  | ⟨0, _⟩ => show win0_2.index t (0 : Fin 2) * 1 + 1 * 0 = 0; omega
  | ⟨1, _⟩ => show win0_2.index t (1 : Fin 2) * 1024 + 1 * j.val = j.val; omega

theorem gblk_apply (c : Dev nD) (t : Fin cfg0.N) (j : Fin 1024) :
    gblk m c t (ix2 (0 : Fin 1) j) = (m ((c : Thread nD τ).loc main_arg3) : S1x1024.Idx → EReal) (ix2 (0 : Fin 1) j) := by
  obtain ⟨-, -, -, -, -, -, e0, e1, -⟩ := idx_facts t
  have hV : gblk m c t = ((cfg0.win 3).blk t).view.read (Elt Ideal) (m ((c : Thread nD τ).loc main_arg3)) := by
    show ((cfg0.win 3).blk t).view.read (Elt Ideal) (V m c main_v7) = _
    rw [V_main_v7]
  rw [hV]
  show (m ((c : Thread nD τ).loc main_arg3) : S1x1024.Idx → EReal) (((cfg0.win 3).blk t).view.emb (ix2 (0 : Fin 1) j)) = _
  congr 1; funext a; apply Fin.ext
  match a with
  | ⟨0, _⟩ => show win0_3.index t (0 : Fin 2) * 1 + 1 * 0 = 0; omega
  | ⟨1, _⟩ => show win0_3.index t (1 : Fin 2) * 1024 + 1 * j.val = j.val; omega

theorem eblk_apply (c : Dev nD) (t : Fin cfg0.N) (j : Fin 1024) :
    eblk m c t (ix2 (0 : Fin 1) j) = (m ((c : Thread nD τ).loc main_arg4) : S1x1024.Idx → EReal) (ix2 (0 : Fin 1) j) := by
  obtain ⟨-, -, -, -, -, -, -, -, e0, e1, -⟩ := idx_facts t
  have hV : eblk m c t = ((cfg0.win 4).blk t).view.read (Elt Ideal) (m ((c : Thread nD τ).loc main_arg4)) := by
    show ((cfg0.win 4).blk t).view.read (Elt Ideal) (V m c main_v9) = _
    rw [V_main_v9]
  rw [hV]
  show (m ((c : Thread nD τ).loc main_arg4) : S1x1024.Idx → EReal) (((cfg0.win 4).blk t).view.emb (ix2 (0 : Fin 1) j)) = _
  congr 1; funext a; apply Fin.ext
  match a with
  | ⟨0, _⟩ => show win0_4.index t (0 : Fin 2) * 1 + 1 * 0 = 0; omega
  | ⟨1, _⟩ => show win0_4.index t (1 : Fin 2) * 1024 + 1 * j.val = j.val; omega

/-! ## The accumulator after a first-half point, the tile a second-half point writes -/

/-- After a first-half point the accumulator holds the broadcast bias plus that half-product. -/
theorem scratch_even (c : Dev nD) (t : Fin cfg0.N) (h0 : t.val % 2 = 0) :
    (outsAt0 m c t.val t.isLt).2 = k0_pay2 (k0_pay1 (bblk m c t)) (xblk m c t) (wblk m c t) := by
  have h1 : ¬t.val % 2 = 1 := by omega
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h))
    (iblk m c 0 t) (iblk m c 1 t) (iblk m c 2 t) (iblk m c 3 t) (iblk m c 4 t)

/-- What a second-half point would write back: the epilogue of the accumulator built over the pair of points. -/
theorem flushed_odd (c : Dev nD) (t : Fin cfg0.N) (h1 : t.val % 2 = 1) :
    (dats m 0 c).flushed 5 t = (cfg0.win 5).cut (grid0.coords t)
      (k0_pay3 (k0_pay2 (k0_pay2 (k0_pay1 (bblk m c (prev t))) (xblk m c (prev t)) (wblk m c (prev t))) (xblk m c t) (wblk m c t))
        (gblk m c t) (eblk m c t)) := by
  have h0 : ¬t.val % 2 = 0 := by omega
  have hp : (prev t).val % 2 = 0 := by show (t.val - 1) % 2 = 0; omega
  rw [Cert.ReferenceIdeal.Value.flushed5_B m c t h0 h1]
  refine congrArg ((cfg0.win 5).cut (grid0.coords t)) ?_
  refine (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
    (iblk m c 0 t) (iblk m c 1 t) (iblk m c 2 t) (iblk m c 3 t) (iblk m c 4 t)
    (outsAt0 m c (t.val - 1) (Nat.lt_of_le_of_lt (Nat.sub_le _ _) t.isLt)).2).trans ?_
  rw [show (outsAt0 m c (t.val - 1) (Nat.lt_of_le_of_lt (Nat.sub_le _ _) t.isLt)).2 = (outsAt0 m c (prev t).val (prev t).isLt).2 from rfl,
    scratch_even m c (prev t) hp]

/-! ## One entry of the tile a second-half point writes -/

/-- Over blocks that agree with the arrays X, W, b, g, β at global row r — the first-half blocks A0, B0 with the first 512
    positions of the contraction axis, the second-half blocks A1, B1 with the last 512 —, entry (p, q) of the epilogue
    is the reference's arrangement at (r, q). -/
theorem entry_eq (X : LNSpec.SX.Idx → EReal) (W : LNSpec.SW.Idx → EReal) (b g β : LNSpec.SV.Idx → EReal) (r : Fin 8192)
    (A0 A1 : Vec Ideal S512x512 .f32) (B0 B1 : Vec Ideal S512x1024 .f32) (bb gg ee : Vec Ideal S1x1024 .f32) (p : Fin 512)
    (hA0 : ∀ k : Fin 512, A0 (ix2 p k) = X (ix2 r (LNSpec.lo k))) (hA1 : ∀ k : Fin 512, A1 (ix2 p k) = X (ix2 r (LNSpec.hi k)))
    (hB0 : ∀ (k : Fin 512) (j : Fin 1024), B0 (ix2 k j) = W (ix2 (LNSpec.lo k) j))
    (hB1 : ∀ (k : Fin 512) (j : Fin 1024), B1 (ix2 k j) = W (ix2 (LNSpec.hi k) j))
    (hb : ∀ j : Fin 1024, bb (ix2 (0 : Fin 1) j) = b (ix2 (0 : Fin 1) j))
    (hg : ∀ j : Fin 1024, gg (ix2 (0 : Fin 1) j) = g (ix2 (0 : Fin 1) j))
    (he : ∀ j : Fin 1024, ee (ix2 (0 : Fin 1) j) = β (ix2 (0 : Fin 1) j)) (q : Fin 1024) :
    k0_pay3 (k0_pay2 (k0_pay2 (k0_pay1 bb) A0 B0) A1 B1) gg ee (ix2 p q) = LNSpec.refOutAt X W b g β r q := by
  have hz : ∀ j : Fin 1024, k0_pay2 (k0_pay2 (k0_pay1 bb) A0 B0) A1 B1 (ix2 p j) = LNSpec.rZ X W b r j := by
    intro j
    rw [rpay2_apply, rpay2_apply, rpay1_apply]
    simp only [hA0, hA1, hB0, hB1, hb]
    rfl
  rw [rpay3_apply]
  simp only [hz, hg, he]
  rfl

/-! ## What a point writes back, the cover, the array -/

/-- What a writing point writes back is its tile of the reference's arrangement of the arguments. -/
theorem flushed_eq (c : Dev nD) (t : Fin cfg0.N) (hf : (cfg0.win 5).flush t = true) :
    (dats m 0 c).flushed 5 t = ((cfg0.win 5).blk t).view.read (Elt Ideal)
      (LNSpec.refOut (m ((c : Thread nD τ).loc main_arg0)) (m ((c : Thread nD τ).loc main_arg1)) (m ((c : Thread nD τ).loc main_arg2))
          (m ((c : Thread nD τ).loc main_arg3)) (m ((c : Thread nD τ).loc main_arg4))) := by
  have h1 : t.val % 2 = 1 := (flush0_5 t).mp hf
  have ht := lt32 t
  rw [flushed_odd m c t h1]
  obtain ⟨-, -, -, -, -, -, -, -, -, -, e0, e1⟩ := idx_facts t
  funext y
  obtain ⟨p, q, rfl⟩ : ∃ (p : Fin 512) (q : Fin 1024), y = ix2 p q := ⟨y 0, y 1, eq_ix2 y⟩
  show k0_pay3 (k0_pay2 (k0_pay2 (k0_pay1 (bblk m c (prev t))) (xblk m c (prev t)) (wblk m c (prev t))) (xblk m c t) (wblk m c t))
      (gblk m c t) (eblk m c t) (ix2 p q)
    = LNSpec.refOut _ _ _ _ _ (((cfg0.win 5).blk t).view.emb (ix2 p q))
  have hidx : ((cfg0.win 5).blk t).view.emb (ix2 p q) = (ix2 (grow t p) q : S8192x1024.Idx) := by
    funext a; apply Fin.ext
    match a with
    | ⟨0, _⟩ => show win0_5.index t (0 : Fin 2) * 512 + 1 * p.val = t.val / 2 * 512 + p.val; omega
    | ⟨1, _⟩ => show win0_5.index t (1 : Fin 2) * 1024 + 1 * q.val = q.val; omega
  rw [hidx]
  have hrow : grow (prev t) p = grow t p := Fin.ext (by show (t.val - 1) / 2 * 512 + p.val = t.val / 2 * 512 + p.val; omega)
  have hlo : ∀ k : Fin 512, gcol (prev t) k = LNSpec.lo k := fun k => Fin.ext (by show (t.val - 1) % 2 * 512 + k.val = k.val; omega)
  have hhi : ∀ k : Fin 512, gcol t k = LNSpec.hi k := fun k => Fin.ext (by show t.val % 2 * 512 + k.val = 512 + k.val; omega)
  exact entry_eq _ _ _ _ _ (grow t p) _ _ _ _ _ _ _ p
    (fun k => by rw [xblk_apply, hrow, hlo]) (fun k => by rw [xblk_apply, hhi])
    (fun k j => by rw [wblk_apply, hlo]) (fun k j => by rw [wblk_apply, hhi])
    (fun j => bblk_apply m c (prev t) j) (fun j => gblk_apply m c t j) (fun j => eblk_apply m c t j) q

/-- An index of the array is in point t's tile iff each coordinate is in the tile's range on its axis. -/
theorem mem_blk (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v10).slice (win0_5.rect t)).set ↔ _
  rw [View.set_slice_whole, Rect.mem_set_unit]
  exact Iff.rfl

/-- Every row lies in the tile written by the second-half point of its group of 512 rows. -/
theorem cover (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  let t : Fin cfg0.N := ⟨2 * ((i 0).val / 512) + 1, by show _ < grid0.N; rw [N_0]; omega⟩
  have htv : t.val = 2 * ((i 0).val / 512) + 1 := rfl
  obtain ⟨-, -, -, -, -, -, -, -, -, -, e0, e1⟩ := idx_facts t
  refine ⟨t, (flush0_5 t).mpr (by omega), ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the run the output array is the reference's arrangement of the function, of the argument arrays as launched. -/
theorem final (c : Dev nD) :
    (dats m 0 c).arrAt 5 cfg0.N
      = LNSpec.refOut (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t hf => flushed_eq m c t hf) cover

theorem run : θ_run defs (onTc (τ := τ) (main (F := Ideal))) ⟨m, fun _ => 0, ρ⟩ fun r => ∀ c : Dev nD,
      r.2.mem ((c : Thread nD τ).loc main_v10)
        = LNSpec.refOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.ReferenceIdeal.Value.run_blocks m ρ)

end Cert.ReferenceIdeal.Hand

end
-- ==== Proof.Finite.lean ====
import proofs.«140966_g2000102696666258_pallasbulk_1294_19_alg».proof.Pre_finite_inputs
import Idealize.ShloMosaic.PureOps.Ideal
import Idealize.ShloMosaic.Lib.ReduceAll
import Idealize.ShloMosaic.Lib.ValueIdx

noncomputable section

open scoped BigOperators

namespace Cert.Hand

open Idealize.ShloMosaic Idealize.ShloMosaic.ValueIdx Cert.Pre_finite_inputs

/-- The rank-0 shape has a single index (there is no coordinate to differ in). -/
instance subsingleton_scalar_idx : Subsingleton S_.Idx := ⟨fun a b => funext fun d => d.elim0⟩

/-- The f32 word `0x7F800000` (sign 0, exponent all ones, fraction 0) denotes +∞. -/
theorem ofBits_inf_f32 : Ideal.ofBits .f32 0x7F800000#32 = (⊤ : EReal) := by
  simp [Ideal.ofBits, Ideal.ieee]

/-- One value: if |x| = max x (−x) lies strictly below +∞ then x is neither +∞ nor −∞, hence a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- One array of any shape: if the conjunction over all its entries of "|v| < +∞" came out true,
    every entry is a real number. -/
theorem all_real_of_all_abs_lt_inf {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
          (cmpf .olt (Host.absf a) (broadcastInDim S ![] hb (constant (F := Ideal) S_ .f32 0x7F800000#32)))
          (constantI S_ 1 1#1) hr hu ix0 = 1#1) :
    ∀ i, ∃ x : ℝ, a i = (x : EReal) := by
  intro i
  have hi := Host.reduce_andi_all _ _ hr hu ix0 e i
  exact real_of_abs_lt_inf (a i) hi

/-- The precondition read back: when `finite_inputs` holds, every entry of x, of w and of the bias is a real number
    (|v| < +∞ on the extended reals leaves only the reals). -/
theorem finite_of_fn [Cert.Pre_finite_inputs.Facts] (a0 : FVec Ideal S8192x1024 .f32) (a1 : FVec Ideal S1024x1024 .f32)
    (a2 a3 a4 : FVec Ideal S1x1024 .f32)
    (h : Cert.Pre_finite_inputs.fn (F := Ideal) a0 a1 a2 a3 a4 = fun _ => 1#1) :
    (∀ i, ∃ x : ℝ, a0 i = (x : EReal)) ∧ (∀ i, ∃ x : ℝ, a1 i = (x : EReal)) ∧ (∀ i, ∃ x : ℝ, a2 i = (x : EReal)) := by
  have h0 := congrFun h ValueIdx.ix0
  dsimp only [Cert.Pre_finite_inputs.fn, Cert.Pre_finite_inputs.fn_part1] at h0
  -- the result is ((((p0 ∧ p1) ∧ p2) ∧ p3) ∧ p4) on one-bit words; only p0, p1, p2 are used
  obtain ⟨h0123, -⟩ := IntOp.andi_eq_one.1 h0
  obtain ⟨h012, -⟩ := IntOp.andi_eq_one.1 h0123
  obtain ⟨h01, p2⟩ := IntOp.andi_eq_one.1 h012
  obtain ⟨p0, p1⟩ := IntOp.andi_eq_one.1 h01
  exact ⟨all_real_of_all_abs_lt_inf a0 _ _ _ p0, all_real_of_all_abs_lt_inf a1 _ _ _ p1,
    all_real_of_all_abs_lt_inf a2 _ _ _ p2⟩

end Cert.Hand

end
-- ==== Proof.lean ====
/-
  Fused linear + layer norm + ReLU: y = relu (layernorm (x · w + b) · γ + β) over f32[8192, 1024].

  The kernel multiplies a 1024-row tile of x by the whole of w in one step and never forms z = x · w + b for the
  statistics: the row sum of z and its sum of squares come from two small products of y = x · w and of y · y against a
  [1024, 128] matrix whose first column is all ones and whose second is b — ∑ z = ∑ y + ∑ b and
  ∑ z² = ∑ y² + 2 ∑ y b + ∑ b². The reference is itself a tiled kernel: 512-row tiles, the contraction axis cut in two
  halves accumulated into a scratch tile that starts at the broadcast bias, the statistics taken from z directly after the
  second half. At the ideal instance both are the same function of the arguments once x, w and b are finite, which the
  precondition gives: the kernel's changes of float format are the identity, every sum is exact, and the expansion of the
  square is an identity of real numbers (it fails at infinities, which is why finiteness is used).

  The modules: Spec (the two arrangements of the function), RowAlgebra (they agree on finite inputs), LibScatterSet (a
  host `.at[].set` read at an index), KernelHost / KernelBlock / KernelValue (the kernel's output array is the first
  arrangement), RefHost / RefPieces / RefBlock / RefValue (the reference's is the second), Finite (the precondition read
  back). The three frames are the generated ones; the one rewrite the idealisation made (a widening of a narrowing) is
  the rule's own statement.
-/
import proofs.«140966_g2000102696666258_pallasbulk_1294_19_alg».proof.Defs
import proofs.«140966_g2000102696666258_pallasbulk_1294_19_alg».proof.Proof.Gen.Kernel
import proofs.«140966_g2000102696666258_pallasbulk_1294_19_alg».proof.Proof.Gen.Kernel.Frame
import proofs.«140966_g2000102696666258_pallasbulk_1294_19_alg».proof.Proof.Gen.KernelIdeal
import proofs.«140966_g2000102696666258_pallasbulk_1294_19_alg».proof.Proof.Gen.KernelIdeal.Frame
import proofs.«140966_g2000102696666258_pallasbulk_1294_19_alg».proof.Proof.Gen.KernelIdeal.Value
import proofs.«140966_g2000102696666258_pallasbulk_1294_19_alg».proof.Proof.Gen.ReferenceIdeal
import proofs.«140966_g2000102696666258_pallasbulk_1294_19_alg».proof.Proof.Gen.ReferenceIdeal.Frame
import proofs.«140966_g2000102696666258_pallasbulk_1294_19_alg».proof.Proof.Gen.ReferenceIdeal.Value
import proofs.«140966_g2000102696666258_pallasbulk_1294_19_alg».proof.Proof.Gen.Pre_finite_inputs
import proofs.«140966_g2000102696666258_pallasbulk_1294_19_alg».proof.Proof.RowAlgebra
import proofs.«140966_g2000102696666258_pallasbulk_1294_19_alg».proof.Proof.KernelValue
import proofs.«140966_g2000102696666258_pallasbulk_1294_19_alg».proof.Proof.RefValue
import proofs.«140966_g2000102696666258_pallasbulk_1294_19_alg».proof.Proof.Finite
import Idealize.ShloMosaic.Adequacy
import Idealize.ShloMosaic.Init

noncomputable section

namespace Cert.Proof

open Idealize.ShloMosaic Idealize.ShloMosaic.TcCoe Idealize.SL.Sem

/-- The idealisation's one rewrite: widening back a value just narrowed to bf16 is the identity at the ideal instance. -/
theorem preserves : Cert.preserves_Kernel_KernelIdeal :=
  IdealRules.truncf_extf.statement Cert.KernelIdeal.S1024x1024 .f32 .bf16

/-- Both idealised programs end at the same array: the kernel's at its arrangement of the function, the reference's at its
    own, of arguments that agree; the two arrangements are equal because the precondition makes x, w and b finite. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨hX, hW, hb⟩ := Cert.Hand.finite_of_fn _ _ _ _ _ (hpre c)
  rw [(hagree c).1, (hagree c).2.1, (hagree c).2.2.1, (hagree c).2.2.2.1, (hagree c).2.2.2.2]
  exact (Cert.LNSpec.kernelOut_eq_refOut _ _ _ _ _ hX hW hb).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  preserves,
  algebraic⟩

end Cert.Proof

end
